-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x21x512x512 : Shape := ⟨4, ![8, 21, 512, 512]⟩
abbrev S8x512x512 : Shape := ⟨3, ![8, 512, 512]⟩
abbrev S_ : Shape := ⟨0, ![]⟩

class Facts : Prop where
  bcast_S_S8x21x512x512 : S_.BroadcastsInDim S8x21x512x512 (![] : Fin 0 → Fin S8x21x512x512.rank)
  reducesTo_S8x21x512x512_S_d0_1_2_3 : S8x21x512x512.ReducesTo [0, 1, 2, 3] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_

variable [Facts]

def fn {F : FTy → Type} [FloatOps F] (main_arg0 : FVec F S8x21x512x512 .f32) (main_arg1 : IVec S8x512x512 32) : IVec S_ 1 :=
  let main_v0 : FVec F S8x21x512x512 .f32 := Host.absf main_arg0
  let main_cst : FVec F S_ .f32 := constant S_ .f32 0x7F800000#32
  let main_v1 : FVec F S8x21x512x512 .f32 := broadcastInDim S8x21x512x512 ![] bcast_S_S8x21x512x512 main_cst
  let main_v2 : IVec S8x21x512x512 1 := cmpf .olt main_v0 main_v1
  let main_c : IVec S_ 1 := constantI S_ 1 1#1
  let main_v3 : IVec S_ 1 := (fun x v => Host.reduce IntOp.andi x v reducesTo_S8x21x512x512_S_d0_1_2_3 h_S_) main_v2 main_c
  let main_c_0 : IVec S_ 32 := constantI S_ 32 0#32
  let main_v4 : IVec S8x512x512 32 := broadcastInDim S8x512x512 ![] bcast_S_S8x512x512 main_c_0
  let main_v5 : IVec S8x512x512 1 := cmpi .sge main_arg1 main_v4
  let main_c_1 : IVec S_ 32 := constantI S_ 32 21#32
  let main_v6 : IVec S8x512x512 32 := broadcastInDim S8x512x512 ![] bcast_S_S8x512x512 main_c_1
  let main_v7 : IVec S8x512x512 1 := cmpi .slt main_arg1 main_v6
  let main_v8 : IVec S8x512x512 1 := andi main_v5 main_v7
  let main_c_2 : IVec S_ 32 := constantI S_ 32 255#32
  let main_v9 : IVec S8x512x512 32 := broadcastInDim S8x512x512 ![] bcast_S_S8x512x512 main_c_2
  let main_v10 : IVec S8x512x512 1 := cmpi .eq main_arg1 main_v9
  let main_v11 : IVec S8x512x512 1 := ori main_v8 main_v10
  let main_c_3 : IVec S_ 1 := constantI S_ 1 1#1
  let main_v12 : IVec S_ 1 := (fun x v => Host.reduce IntOp.andi x v reducesTo_S8x512x512_S_d0_1_2 h_S_) main_v11 main_c_3
  let main_v13 : IVec S_ 1 := andi main_v3 main_v12
  main_v13
-- ==== Kernel.lean ====
abbrev S8x21x512x512 : Shape := ⟨4, ![8, 21, 512, 512]⟩
abbrev S8x512x512 : Shape := ⟨3, ![8, 512, 512]⟩
abbrev S8x510x512 : Shape := ⟨3, ![8, 510, 512]⟩
abbrev S_ : Shape := ⟨0, ![]⟩
abbrev S8x510x510 : Shape := ⟨3, ![8, 510, 510]⟩
abbrev S510x510 : Shape := ⟨2, ![510, 510]⟩
abbrev S512x512 : Shape := ⟨2, ![512, 512]⟩
abbrev S1 : Shape := ⟨1, ![1]⟩
abbrev S2 : Shape := ⟨1, ![2]⟩
abbrev S8x1x1 : Shape := ⟨3, ![8, 1, 1]⟩
abbrev S1x21x512x512 : Shape := ⟨4, ![1, 21, 512, 512]⟩
abbrev S1x512x512 : Shape := ⟨3, ![1, 512, 512]⟩
abbrev S1x1x1 : Shape := ⟨3, ![1, 1, 1]⟩
abbrev S21x512x512 : Shape := ⟨3, ![21, 512, 512]⟩

abbrev nBuf : Space → Nat
  | .hbm => 47
  | .vmem => 7
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S8x510x512, .i32⟩
  | .hbm, ⟨3, _⟩ => ⟨S8x510x512, .i32⟩
  | .hbm, ⟨4, _⟩ => ⟨S8x510x512, .i32⟩
  | .hbm, ⟨5, _⟩ => ⟨S8x510x512, .i32⟩
  | .hbm, ⟨6, _⟩ => ⟨S8x510x512, .i32⟩
  | .hbm, ⟨7, _⟩ => ⟨S8x510x512, .i32⟩
  | .hbm, ⟨8, _⟩ => ⟨S8x510x512, .i32⟩
  | .hbm, ⟨9, _⟩ => ⟨S8x510x512, .i32⟩
  | .hbm, ⟨10, _⟩ => ⟨S8x510x512, .i32⟩
  | .hbm, ⟨11, _⟩ => ⟨S8x510x512, .i32⟩
  | .hbm, ⟨12, _⟩ => ⟨S8x510x512, .i32⟩
  | .hbm, ⟨13, _⟩ => ⟨S_, .i32⟩
  | .hbm, ⟨14, _⟩ => ⟨S8x510x512, .i32⟩
  | .hbm, ⟨15, _⟩ => ⟨S8x510x512, .i1⟩
  | .hbm, ⟨16, _⟩ => ⟨S8x510x510, .i1⟩
  | .hbm, ⟨17, _⟩ => ⟨S8x510x510, .i1⟩
  | .hbm, ⟨18, _⟩ => ⟨S8x510x510, .i1⟩
  | .hbm, ⟨19, _⟩ => ⟨S8x510x510, .i1⟩
  | .hbm, ⟨20, _⟩ => ⟨S8x510x510, .i1⟩
  | .hbm, ⟨21, _⟩ => ⟨S_, .i1⟩
  | .hbm, ⟨22, _⟩ => ⟨S510x510, .i1⟩
  | .hbm, ⟨23, _⟩ => ⟨S_, .f32⟩
  | .hbm, ⟨24, _⟩ => ⟨S512x512, .f32⟩
  | .hbm, ⟨25, _⟩ => ⟨S510x510, .f32⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S512x512, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S_, .f32⟩
  | .hbm, ⟨36, _⟩ => ⟨S512x512, .f32⟩
  | .hbm, ⟨37, _⟩ => ⟨S512x512, .f32⟩
  | .hbm, ⟨38, _⟩ => ⟨S8x1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1x21x512x512, .f32⟩
  | .local _ .vmem, ⟨1, _⟩ => ⟨S1x21x512x512, .f32⟩
  | .local _ .vmem, ⟨2, _⟩ => ⟨S1x512x512, .i32⟩
  | .local _ .vmem, ⟨3, _⟩ => ⟨S1x512x512, .i32⟩
  | .local _ .vmem, ⟨4, _⟩ => ⟨S512x512, .f32⟩
  | .local _ .vmem, ⟨5, _⟩ => ⟨S1x1x1, .f32⟩
  | .local _ .vmem, ⟨6, _⟩ => ⟨S1x1x1, .f32⟩
  | _, _ => ⟨S8x21x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_c : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_c_0 : Ref sig .tc := ⟨.hbm, 21, rfl⟩
abbrev main_call0_v18 : Ref sig .tc := ⟨.hbm, 22, rfl⟩
abbrev main_call0_cst : Ref sig .tc := ⟨.hbm, 23, rfl⟩
abbrev main_call0_v19 : Ref sig .tc := ⟨.hbm, 24, rfl⟩
abbrev main_call0_v20 : Ref sig .tc := ⟨.hbm, 25, rfl⟩
abbrev main_call0_c_1 : Ref sig .tc := ⟨.hbm, 26, rfl⟩
abbrev main_call0_v21 : Ref sig .tc := ⟨.hbm, 27, rfl⟩
abbrev main_call0_c_2 : Ref sig .tc := ⟨.hbm, 28, rfl⟩
abbrev main_call0_v22 : Ref sig .tc := ⟨.hbm, 29, rfl⟩
abbrev main_call0_v23 : Ref sig .tc := ⟨.hbm, 30, rfl⟩
abbrev main_call0_v24 : Ref sig .tc := ⟨.hbm, 31, rfl⟩
abbrev main_call0_cst_3 : Ref sig .tc := ⟨.hbm, 32, rfl⟩
abbrev main_call0_v25 : Ref sig .tc := ⟨.hbm, 33, rfl⟩
abbrev main_call0_v26 : Ref sig .tc := ⟨.hbm, 34, rfl⟩
abbrev main_call0_cst_4 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_cst_5 : Ref sig .tc := ⟨.hbm, 39, rfl⟩
abbrev main_call0_v30 : Ref sig .tc := ⟨.hbm, 40, rfl⟩
abbrev main_call0_cst_6 : Ref sig .tc := ⟨.hbm, 41, rfl⟩
abbrev main_call0_cst_7 : Ref sig .tc := ⟨.hbm, 42, rfl⟩
abbrev main_call0_v31 : Ref sig .tc := ⟨.hbm, 43, rfl⟩
abbrev main_call0_cst_8 : Ref sig .tc := ⟨.hbm, 44, rfl⟩
abbrev main_call0_v32 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x21x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x512x512_S8x510x512_0_0_0 : S8x512x512.Slices ![0, 0, 0] S8x510x512
  slices_S8x512x512_S8x510x512_0_1_0 : S8x512x512.Slices ![0, 1, 0] S8x510x512
  slices_S8x512x512_S8x510x512_0_2_0 : S8x512x512.Slices ![0, 2, 0] S8x510x512
  bcast_S_S8x510x512 : S_.BroadcastsInDim S8x510x512 (![] : Fin 0 → Fin S8x510x512.rank)
  slices_S8x510x512_S8x510x510_0_0_0 : S8x510x512.Slices ![0, 0, 0] S8x510x510
  slices_S8x510x512_S8x510x510_0_0_1 : S8x510x512.Slices ![0, 0, 1] S8x510x510
  slices_S8x510x512_S8x510x510_0_0_2 : S8x510x512.Slices ![0, 0, 2] S8x510x510
  reducesTo_S8x510x510_S510x510_d0 : S8x510x510.ReducesTo [0] S510x510
  h_S_ : 0 < S_.numel
  bcast_S_S512x512 : S_.BroadcastsInDim S512x512 (![] : Fin 0 → Fin S512x512.rank)
  bcast_S_S1 : S_.BroadcastsInDim S1 (![] : Fin 0 → Fin S1.rank)
  concatenates_S1_S1_S2_d0 : Shape.Concatenates [S1, S1] S2 0
  reducesTo_S8x1x1_S_d0_1_2 : S8x1x1.ReducesTo [0, 1, 2] S_
  inb_S1x21x512x512_S1x21x512x512_0_0_0_0 : ∀ a, (![0, 0, 0, 0] : Fin 4 → Nat) a + S1x21x512x512.size a ≤ S1x21x512x512.size a
  h_S1x21x512x512 : 0 < S1x21x512x512.numel
  shapeCasts_S1x21x512x512_S21x512x512 : S1x21x512x512.ShapeCasts S21x512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S21x512x512_o0_0_0_S1x512x512 : S21x512x512.Slices ![0, 0, 0] S1x512x512
  slices_S21x512x512_o1_0_0_S1x512x512 : S21x512x512.Slices ![1, 0, 0] S1x512x512
  slices_S21x512x512_o2_0_0_S1x512x512 : S21x512x512.Slices ![2, 0, 0] S1x512x512
  slices_S21x512x512_o3_0_0_S1x512x512 : S21x512x512.Slices ![3, 0, 0] S1x512x512
  slices_S21x512x512_o4_0_0_S1x512x512 : S21x512x512.Slices ![4, 0, 0] S1x512x512
  slices_S21x512x512_o5_0_0_S1x512x512 : S21x512x512.Slices ![5, 0, 0] S1x512x512
  slices_S21x512x512_o6_0_0_S1x512x512 : S21x512x512.Slices ![6, 0, 0] S1x512x512
  slices_S21x512x512_o7_0_0_S1x512x512 : S21x512x512.Slices ![7, 0, 0] S1x512x512
  slices_S21x512x512_o8_0_0_S1x512x512 : S21x512x512.Slices ![8, 0, 0] S1x512x512
  slices_S21x512x512_o9_0_0_S1x512x512 : S21x512x512.Slices ![9, 0, 0] S1x512x512
  slices_S21x512x512_o10_0_0_S1x512x512 : S21x512x512.Slices ![10, 0, 0] S1x512x512
  slices_S21x512x512_o11_0_0_S1x512x512 : S21x512x512.Slices ![11, 0, 0] S1x512x512
  slices_S21x512x512_o12_0_0_S1x512x512 : S21x512x512.Slices ![12, 0, 0] S1x512x512
  slices_S21x512x512_o13_0_0_S1x512x512 : S21x512x512.Slices ![13, 0, 0] S1x512x512
  slices_S21x512x512_o14_0_0_S1x512x512 : S21x512x512.Slices ![14, 0, 0] S1x512x512
  slices_S21x512x512_o15_0_0_S1x512x512 : S21x512x512.Slices ![15, 0, 0] S1x512x512
  slices_S21x512x512_o16_0_0_S1x512x512 : S21x512x512.Slices ![16, 0, 0] S1x512x512
  slices_S21x512x512_o17_0_0_S1x512x512 : S21x512x512.Slices ![17, 0, 0] S1x512x512
  slices_S21x512x512_o18_0_0_S1x512x512 : S21x512x512.Slices ![18, 0, 0] S1x512x512
  slices_S21x512x512_o19_0_0_S1x512x512 : S21x512x512.Slices ![19, 0, 0] S1x512x512
  slices_S21x512x512_o20_0_0_S1x512x512 : S21x512x512.Slices ![20, 0, 0] S1x512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  scatter_S512x512_S2_S510x510_01_n_01_0_wf : ScatterDims.WF S512x512 S2 S510x510 [0, 1] [] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x512x512.size a ≤ S8x21x512x512.size a
  hwx0_0 : ∀ i : grid0.Coords, EltTy.bits .f32 = 32 ∨ (Rect.block (s := S8x21x512x512) S1x21x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .i32 = 32 ∨ (Rect.block (s := S8x512x512) S1x512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

def scatter_S512x512_S2_S510x510_01_n_01_0 : ScatterDims S512x512 S2 S510x510 where
  updateWindowDims := [0, 1]
  insertedWindowDims := []
  scatterDimsToOperandDims := [0, 1]
  indexVectorDim := 0
  wf := scatter_S512x512_S2_S510x510_01_n_01_0_wf

abbrev win0_0 : Pipeline.Window sig grid0 :=
  Pipeline.Window.ofSpec (Memref.whole main_arg0) S1x21x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v28) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v29) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x21x512x512 : Shape := ⟨4, ![8, 21, 512, 512]⟩
abbrev S8x512x512 : Shape := ⟨3, ![8, 512, 512]⟩
abbrev S_ : Shape := ⟨0, ![]⟩
abbrev S8x1x512x512 : Shape := ⟨4, ![8, 1, 512, 512]⟩
abbrev S8x1x512x512x1 : Shape := ⟨5, ![8, 1, 512, 512, 1]⟩
abbrev S1 : Shape := ⟨1, ![1]⟩
abbrev S1x1x1x1x1 : Shape := ⟨5, ![1, 1, 1, 1, 1]⟩
abbrev S8x510x512 : Shape := ⟨3, ![8, 510, 512]⟩
abbrev S8x510x510 : Shape := ⟨3, ![8, 510, 510]⟩
abbrev S510x510 : Shape := ⟨2, ![510, 510]⟩
abbrev S2 : Shape := ⟨1, ![2]⟩

abbrev nBuf : Space → Nat
  | .hbm => 95
  | .vmem => 0
  | .smem => 0
  | _ => 0

abbrev bufTy : (tb : Table) → Fin (tcTables nBuf tb) → BufTy
  | .hbm, ⟨0, _⟩ => ⟨S8x21x512x512, .f32⟩
  | .hbm, ⟨1, _⟩ => ⟨S8x512x512, .i32⟩
  | .hbm, ⟨2, _⟩ => ⟨S_, .f32⟩
  | .hbm, ⟨3, _⟩ => ⟨S8x512x512, .f32⟩
  | .hbm, ⟨4, _⟩ => ⟨S_, .f32⟩
  | .hbm, ⟨5, _⟩ => ⟨S8x512x512, .f32⟩
  | .hbm, ⟨6, _⟩ => ⟨S8x512x512, .f32⟩
  | .hbm, ⟨7, _⟩ => ⟨S8x1x512x512, .f32⟩
  | .hbm, ⟨8, _⟩ => ⟨S8x21x512x512, .f32⟩
  | .hbm, ⟨9, _⟩ => ⟨S8x21x512x512, .f32⟩
  | .hbm, ⟨10, _⟩ => ⟨S8x21x512x512, .f32⟩
  | .hbm, ⟨11, _⟩ => ⟨S_, .f32⟩
  | .hbm, ⟨12, _⟩ => ⟨S8x512x512, .f32⟩
  | .hbm, ⟨13, _⟩ => ⟨S8x1x512x512, .f32⟩
  | .hbm, ⟨14, _⟩ => ⟨S8x1x512x512, .f32⟩
  | .hbm, ⟨15, _⟩ => ⟨S8x21x512x512, .f32⟩
  | .hbm, ⟨16, _⟩ => ⟨S8x21x512x512, .f32⟩
  | .hbm, ⟨17, _⟩ => ⟨S_, .i32⟩
  | .hbm, ⟨18, _⟩ => ⟨S8x512x512, .i32⟩
  | .hbm, ⟨19, _⟩ => ⟨S8x512x512, .i1⟩
  | .hbm, ⟨20, _⟩ => ⟨S_, .i32⟩
  | .hbm, ⟨21, _⟩ => ⟨S_, .i32⟩
  | .hbm, ⟨22, _⟩ => ⟨S8x512x512, .i32⟩
  | .hbm, ⟨23, _⟩ => ⟨S8x512x512, .i32⟩
  | .hbm, ⟨24, _⟩ => ⟨S8x1x512x512, .i32⟩
  | .hbm, ⟨25, _⟩ => ⟨S_, .i32⟩
  | .hbm, ⟨26, _⟩ => ⟨S8x1x512x512, .i32⟩
  | .hbm, ⟨27, _⟩ => ⟨S8x1x512x512, .i1⟩
  | .hbm, ⟨28, _⟩ => ⟨S_, .i32⟩
  | .hbm, ⟨29, _⟩ => ⟨S8x1x512x512, .i32⟩
  | .hbm, ⟨30, _⟩ => ⟨S8x1x512x512, .i32⟩
  | .hbm, ⟨31, _⟩ => ⟨S8x1x512x512, .i32⟩
  | .hbm, ⟨32, _⟩ => ⟨S8x1x512x512x1, .i32⟩
  | .hbm, ⟨33, _⟩ => ⟨S1, .i32⟩
  | .hbm, ⟨34, _⟩ => ⟨S_, .i32⟩
  | .hbm, ⟨35, _⟩ => ⟨S8x1x512x512x1, .i32⟩
  | .hbm, ⟨36, _⟩ => ⟨S8x1x512x512x1, .i1⟩
  | .hbm, ⟨37, _⟩ => ⟨S1x1x1x1x1, .i32⟩
  | .hbm, ⟨38, _⟩ => ⟨S8x1x512x512x1, .i32⟩
  | .hbm, ⟨39, _⟩ => ⟨S8x1x512x512x1, .i1⟩
  | .hbm, ⟨40, _⟩ => ⟨S8x1x512x512x1, .i1⟩
  | .hbm, ⟨41, _⟩ => ⟨S_, .i1⟩
  | .hbm, ⟨42, _⟩ => ⟨S8x1x512x512, .i1⟩
  | .hbm, ⟨43, _⟩ => ⟨S8x1x512x512, .f32⟩
  | .hbm, ⟨44, _⟩ => ⟨S_, .f32⟩
  | .hbm, ⟨45, _⟩ => ⟨S8x1x512x512, .f32⟩
  | .hbm, ⟨46, _⟩ => ⟨S8x1x512x512, .f32⟩
  | .hbm, ⟨47, _⟩ => ⟨S8x512x512, .f32⟩
  | .hbm, ⟨48, _⟩ => ⟨S8x512x512, .f32⟩
  | .hbm, ⟨49, _⟩ => ⟨S_, .f32⟩
  | .hbm, ⟨50, _⟩ => ⟨S_, .f32⟩
  | .hbm, ⟨51, _⟩ => ⟨S8x512x512, .f32⟩
  | .hbm, ⟨52, _⟩ => ⟨S8x512x512, .f32⟩
  | .hbm, ⟨53, _⟩ => ⟨S8x510x512, .i32⟩
  | .hbm, ⟨54, _⟩ => ⟨S8x510x512, .i32⟩
  | .hbm, ⟨55, _⟩ => ⟨S8x510x512, .i32⟩
  | .hbm, ⟨56, _⟩ => ⟨S8x510x512, .i32⟩
  | .hbm, ⟨57, _⟩ => ⟨S8x510x512, .i32⟩
  | .hbm, ⟨58, _⟩ => ⟨S8x510x512, .i32⟩
  | .hbm, ⟨59, _⟩ => ⟨S8x510x512, .i32⟩
  | .hbm, ⟨60, _⟩ => ⟨S8x510x512, .i32⟩
  | .hbm, ⟨61, _⟩ => ⟨S8x510x512, .i32⟩
  | .hbm, ⟨62, _⟩ => ⟨S8x510x512, .i32⟩
  | .hbm, ⟨63, _⟩ => ⟨S8x510x512, .i32⟩
  | .hbm, ⟨64, _⟩ => ⟨S_, .i32⟩
  | .hbm, ⟨65, _⟩ => ⟨S8x510x512, .i32⟩
  | .hbm, ⟨66, _⟩ => ⟨S8x510x512, .i1⟩
  | .hbm, ⟨67, _⟩ => ⟨S8x510x510, .i1⟩
  | .hbm, ⟨68, _⟩ => ⟨S8x510x510, .i1⟩
  | .hbm, ⟨69, _⟩ => ⟨S8x510x510, .i1⟩
  | .hbm, ⟨70, _⟩ => ⟨S8x510x510, .i1⟩
  | .hbm, ⟨71, _⟩ => ⟨S8x510x510, .i1⟩
  | .hbm, ⟨72, _⟩ => ⟨S_, .i1⟩
  | .hbm, ⟨73, _⟩ => ⟨S510x510, .i1⟩
  | .hbm, ⟨74, _⟩ => ⟨S_, .f32⟩
  | .hbm, ⟨75, _⟩ => ⟨S8x512x512, .f32⟩
  | .hbm, ⟨76, _⟩ => ⟨S510x510, .f32⟩
  | .hbm, ⟨77, _⟩ => ⟨S8x510x510, .f32⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S8x512x512, .f32⟩
  | .hbm, ⟨84, _⟩ => ⟨S_, .f32⟩
  | .hbm, ⟨85, _⟩ => ⟨S8x512x512, .f32⟩
  | .hbm, ⟨86, _⟩ => ⟨S8x512x512, .f32⟩
  | .hbm, ⟨87, _⟩ => ⟨S_, .f32⟩
  | .hbm, ⟨88, _⟩ => ⟨S8x512x512, .f32⟩
  | .hbm, ⟨89, _⟩ => ⟨S8x512x512, .f32⟩
  | .hbm, ⟨90, _⟩ => ⟨S8x512x512, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_cst : Ref sig .tc := ⟨.hbm, 49, rfl⟩
abbrev main_call3_v0 : Ref sig .tc := ⟨.hbm, 50, rfl⟩
abbrev main_call3_v1 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_c_1 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_2 : Ref sig .tc := ⟨.hbm, 72, rfl⟩
abbrev main_v27 : Ref sig .tc := ⟨.hbm, 73, rfl⟩
abbrev main_cst_3 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_4 : Ref sig .tc := ⟨.hbm, 78, rfl⟩
abbrev main_v31 : Ref sig .tc := ⟨.hbm, 79, rfl⟩
abbrev main_c_5 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_6 : Ref sig .tc := ⟨.hbm, 84, rfl⟩
abbrev main_v35 : Ref sig .tc := ⟨.hbm, 85, rfl⟩
abbrev main_v36 : Ref sig .tc := ⟨.hbm, 86, rfl⟩
abbrev main_cst_7 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_8 : Ref sig .tc := ⟨.hbm, 91, rfl⟩
abbrev main_v40 : Ref sig .tc := ⟨.hbm, 92, rfl⟩
abbrev main_cst_9 : Ref sig .tc := ⟨.hbm, 93, rfl⟩
abbrev main_v41 : Ref sig .tc := ⟨.hbm, 94, rfl⟩

abbrev nD : Nat := 1
abbrev τ : Topo := Topo.v7x

variable {F : FTy → Type} [FloatOps F]

class Facts₀ : Prop where
  reducesTo_S8x21x512x512_S8x512x512_d1 : S8x21x512x512.ReducesTo [1] S8x512x512
  h_S_ : 0 < S_.numel
  bcast_S_S8x512x512 : S_.BroadcastsInDim S8x512x512 (![] : Fin 0 → Fin S8x512x512.rank)
  bcast_S8x512x512_S8x1x512x512_0_2_3 : S8x512x512.BroadcastsInDim S8x1x512x512 (![0, 2, 3] : Fin 3 → Fin S8x1x512x512.rank)
  bcast_S8x1x512x512_S8x21x512x512_0_1_2_3 : S8x1x512x512.BroadcastsInDim S8x21x512x512 (![0, 1, 2, 3] : Fin 4 → Fin S8x21x512x512.rank)
  bcast_S_S8x1x512x512 : S_.BroadcastsInDim S8x1x512x512 (![] : Fin 0 → Fin S8x1x512x512.rank)
  shapeCasts_S8x1x512x512_S8x1x512x512x1 : S8x1x512x512.ShapeCasts S8x1x512x512x1
  bcast_S_S8x1x512x512x1 : S_.BroadcastsInDim S8x1x512x512x1 (![] : Fin 0 → Fin S8x1x512x512x1.rank)
  bcast_S1_S1x1x1x1x1_4 : S1.BroadcastsInDim S1x1x1x1x1 (![4] : Fin 1 → Fin S1x1x1x1x1.rank)
  bcast_S1x1x1x1x1_S8x1x512x512x1_0_1_2_3_4 : S1x1x1x1x1.BroadcastsInDim S8x1x512x512x1 (![0, 1, 2, 3, 4] : Fin 5 → Fin S8x1x512x512x1.rank)
  reducesTo_S8x1x512x512x1_S8x1x512x512_d4 : S8x1x512x512x1.ReducesTo [4] S8x1x512x512
  shapeCasts_S8x1x512x512_S8x512x512 : S8x1x512x512.ShapeCasts S8x512x512
  slices_S8x512x512_S8x510x512_0_0_0 : S8x512x512.Slices ![0, 0, 0] S8x510x512
  slices_S8x512x512_S8x510x512_0_1_0 : S8x512x512.Slices ![0, 1, 0] S8x510x512
  slices_S8x512x512_S8x510x512_0_2_0 : S8x512x512.Slices ![0, 2, 0] S8x510x512
  bcast_S_S8x510x512 : S_.BroadcastsInDim S8x510x512 (![] : Fin 0 → Fin S8x510x512.rank)
  slices_S8x510x512_S8x510x510_0_0_0 : S8x510x512.Slices ![0, 0, 0] S8x510x510
  slices_S8x510x512_S8x510x510_0_0_1 : S8x510x512.Slices ![0, 0, 1] S8x510x510
  slices_S8x510x512_S8x510x510_0_0_2 : S8x510x512.Slices ![0, 0, 2] S8x510x510
  reducesTo_S8x510x510_S510x510_d0 : S8x510x510.ReducesTo [0] S510x510
  bcast_S510x510_S8x510x510_1_2 : S510x510.BroadcastsInDim S8x510x510 (![1, 2] : Fin 2 → Fin S8x510x510.rank)
  bcast_S_S1 : S_.BroadcastsInDim S1 (![] : Fin 0 → Fin S1.rank)
  concatenates_S1_S1_S2_d0 : Shape.Concatenates [S1, S1] S2 0
  reducesTo_S8x512x512_S_d0_1_2 : S8x512x512.ReducesTo [0, 1, 2] S_
  gather_S8x21x512x512_S8x1x512x512x1_S8x1x512x512_n_1_023_023_1_4_1111_wf : GatherDims.WF S8x21x512x512 S8x1x512x512x1 S8x1x512x512 [] [1] [0, 2, 3] [1] [0, 2, 3] 4 ![1, 1, 1, 1]
  scatter_S8x512x512_S2_S8x510x510_012_n_12_0_wf : ScatterDims.WF S8x512x512 S2 S8x510x510 [0, 1, 2] [] [1, 2] 0

variable [Facts₀]

def gather_S8x21x512x512_S8x1x512x512x1_S8x1x512x512_n_1_023_023_1_4_1111 : GatherDims S8x21x512x512 S8x1x512x512x1 S8x1x512x512 where
  offsetDims := []
  collapsedSliceDims := [1]
  operandBatchingDims := [0, 2, 3]
  startIndicesBatchingDims := [0, 2, 3]
  startIndexMap := [1]
  indexVectorDim := 4
  sliceSizes := ![1, 1, 1, 1]
  wf := gather_S8x21x512x512_S8x1x512x512x1_S8x1x512x512_n_1_023_023_1_4_1111_wf
def scatter_S8x512x512_S2_S8x510x510_012_n_12_0 : ScatterDims S8x512x512 S2 S8x510x510 where
  updateWindowDims := [0, 1, 2]
  insertedWindowDims := []
  scatterDimsToOperandDims := [1, 2]
  indexVectorDim := 0
  wf := scatter_S8x512x512_S2_S8x510x510_012_n_12_0_wf

class Facts : Prop extends Facts₀ where

variable [Facts]
-- ==== Proof.Spec.lean ====
/-
  Per-pixel weighted cross entropy with a boundary-aware weight, as one function of the two argument arrays.

  For a pixel with logits `x c` (c = 0..20) and label `t`: with `M = max_c x c` and `S = Σ_c exp (x c − M)`,
  the cross entropy is `(log S + M) − x t`, taken as `0` where `t` is the ignore label 255; it is multiplied by the
  pixel's weight `1 + 2·β`, where `β ∈ {0, 1}` marks an interior pixel whose 3×3 neighbourhood (over all images) is
  not constant along some column; the result is the sum over all pixels divided by their number 8·512·512 = 2²¹.
  Both programs are shown to compute `total`.
-/
import Idealize.ShloMosaic.PureOps.Ideal
import Idealize.ShloMosaic.PureOps.Contract
import Idealize.ShloMosaic.Lib.ValueIdx

noncomputable section

open scoped BigOperators

namespace Cert.BCE

open Idealize.ShloMosaic Idealize.ShloMosaic.ValueIdx

/-- The logits' shape [batch, class, row, column]. -/
abbrev SX : Shape := ⟨4, ![8, 21, 512, 512]⟩
/-- The labels' shape [batch, row, column]. -/
abbrev ST : Shape := ⟨3, ![8, 512, 512]⟩
/-- One image's pixels. -/
abbrev SP : Shape := ⟨2, ![512, 512]⟩
/-- The interior pixels (a one-pixel rim removed). -/
abbrev SB : Shape := ⟨2, ![510, 510]⟩

/-- The largest of a pixel's 21 logits (the supremum from `⊥`, which is the maximum: there are 21 of them). -/
def chanMax (x : Fin 21 → EReal) : EReal := Finset.univ.sup x

/-- `Σ_c exp (x c − M)`, `M` the pixel's largest logit. -/
def expSum (x : Fin 21 → EReal) : EReal := ∑ c : Fin 21, Ideal.exp (x c - chanMax x)

/-- The class a label word names: itself when below 21, else class 0 (used only under the ignore mask). -/
def cls (t : BitVec 32) : Fin 21 := if h : t.toNat < 21 then ⟨t.toNat, h⟩ else 0

/-- One pixel's weighted cross entropy: `((log S + M) − x t) · w`, and `0 · w` at the ignore label. -/
def pixel (x : Fin 21 → EReal) (t : BitVec 32) (w : EReal) : EReal :=
  (if t = 255#32 then 0 else (Ideal.log (expSum x) + chanMax x) - x (cls t)) * w

/-- The boundary bits of the interior pixels: at interior pixel (i, j) — pixel (i+1, j+1) of the image — whether for
    some image and some of the columns j, j+1, j+2 the labels of rows i, i+1, i+2 are not all equal (their largest
    minus their smallest, as 32-bit words, is positive). -/
def bmap (t : IVec ST 32) : IVec SB 1 :=
  let r0 : IVec ⟨3, ![8, 510, 512]⟩ 32 := extractStridedSlice ⟨3, ![8, 510, 512]⟩ ![0, 0, 0] t (by decide)
  let r1 : IVec ⟨3, ![8, 510, 512]⟩ 32 := extractStridedSlice ⟨3, ![8, 510, 512]⟩ ![0, 1, 0] t (by decide)
  let r2 : IVec ⟨3, ![8, 510, 512]⟩ 32 := extractStridedSlice ⟨3, ![8, 510, 512]⟩ ![0, 2, 0] t (by decide)
  let hi := maxsi (maxsi r0 r1) r2
  let lo := minsi (minsi r0 r1) r2
  let d : IVec ⟨3, ![8, 510, 512]⟩ 1 :=
    cmpi .sgt (subi hi lo) (broadcastInDim ⟨3, ![8, 510, 512]⟩ ![] (by decide) (constantI ⟨0, ![]⟩ 32 0#32))
  let c0 : IVec ⟨3, ![8, 510, 510]⟩ 1 := extractStridedSlice ⟨3, ![8, 510, 510]⟩ ![0, 0, 0] d (by decide)
  let c1 : IVec ⟨3, ![8, 510, 510]⟩ 1 := extractStridedSlice ⟨3, ![8, 510, 510]⟩ ![0, 0, 1] d (by decide)
  let c2 : IVec ⟨3, ![8, 510, 510]⟩ 1 := extractStridedSlice ⟨3, ![8, 510, 510]⟩ ![0, 0, 2] d (by decide)
  Host.reduce (axes := [0]) IntOp.ori (ori (ori c0 c1) c2) (constantI ⟨0, ![]⟩ 1 0#1) (by decide) (by decide)

/-- A pixel's weight `1 + 2·β`: `β` the boundary bit (as a float) at an interior pixel, `0` on the rim. The three
    constants are the programs' own words `1.0`, `2.0`, `0.0`. -/
def wgt (t : IVec ST 32) (h w : Fin 512) : EReal :=
  Ideal.ofBits .f32 0x3F800000#32 + Ideal.ofBits .f32 0x40000000#32 *
    (if hi : (1 ≤ h.val ∧ h.val ≤ 510) ∧ (1 ≤ w.val ∧ w.val ≤ 510) then
      FloatOps.uitofp (F := Ideal) .f32 (bmap t (ix2 (⟨h.val - 1, by omega⟩ : Fin 510) (⟨w.val - 1, by omega⟩ : Fin 510)))
    else Ideal.ofBits .f32 0x00000000#32)

/-- The weighted cross entropy of image `b`, summed over its pixels. -/
def imageSum (x : SX.Idx → EReal) (t : IVec ST 32) (b : Fin 8) : EReal :=
  ∑ h : Fin 512, ∑ w : Fin 512, pixel (fun c => x (ix4 b c h w)) (t (ix3 b h w)) (wgt t h w)

/-- The mean over all 8·512·512 pixels. -/
def total (x : SX.Idx → EReal) (t : IVec ST 32) : EReal :=
  Ideal.div (∑ b : Fin 8, imageSum x t b) ((2097152 : ℝ) : EReal)

/-- Every logit is a real number. -/
def Finite (x : SX.Idx → EReal) : Prop := ∀ i, ∃ r : ℝ, x i = (r : EReal)

/-- Every label is a class 0..20 or the ignore label 255. -/
def Labels (t : IVec ST 32) : Prop := ∀ i, (t i).toNat < 21 ∨ t i = 255#32

end Cert.BCE

end
-- ==== Proof.PreDecode.lean ====
/-
  What the precondition says of the two argument arrays: every logit is a real number, and every label is one of the
  classes 0..20 or the ignore label 255.

  The precondition is the conjunction of two "for all elements" tests, each an and-reduction of a one-bit array to a
  single bit. The first array holds, per logit, the bit of |x| < +inf; the second, per label, the bit of
  (0 ≤ t and t < 21, signed) or t = 255. A conjunction that is 1 has both parts 1; an and-reduction over all axes that
  is 1 met a 1 at every element; so each element's bit is 1, and the two per-element lemmas below read the bit back.
-/
import proofs.«414120_j16509854286366_3_alg».proof.Proof.Spec
import proofs.«414120_j16509854286366_3_alg».proof.Pre_finite_inputs
import Idealize.ShloMosaic.Lib.ReduceAll

noncomputable section

namespace Cert.BCE

open Idealize.ShloMosaic Idealize.ShloMosaic.ValueIdx

/-- The word 0x7F800000 denotes +inf. -/
theorem ofBits_posInf : Ideal.ofBits .f32 0x7F800000#32 = (⊤ : EReal) := by
  simp [Ideal.ofBits, Ideal.ieee]

/-- An extended real whose absolute value max a (−a) is strictly below +inf is a real number: at −inf and at +inf the
    absolute value is +inf. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- One logit's bit "|a| < +inf" being 1 says the logit is a real number. -/
theorem real_of_finite_bit (a : Ideal .f32)
    (h : FloatOps.cmpf .olt (FloatOps.hostAbsf a) (FloatOps.ofBits (F := Ideal) .f32 0x7F800000#32) = 1#1) :
    ∃ r : ℝ, a = (r : EReal) := by
  have h' : Ideal.cmp .olt (max a (-a)) (Ideal.ofBits .f32 0x7F800000#32) = 1#1 := h
  rw [ofBits_posInf] at h'
  refine real_of_abs_lt_top a ?_
  by_contra hn
  have : Ideal.cmp .olt (max a (-a)) ⊤ = 0#1 := by simp [Ideal.cmp, hn]
  rw [this] at h'
  exact absurd h' (by decide)

/-- A 32-bit word that is at least 0 and below 21 as a signed number is below 21 as a natural number. -/
theorem toNat_lt_of_signed_range (w : BitVec 32) (h0 : IntOp.cmpi .sge w 0#32 = 1#1)
    (h1 : IntOp.cmpi .slt w 21#32 = 1#1) : w.toNat < 21 := by
  rw [IntOp.cmpi_sge] at h0
  rw [IntOp.cmpi_slt] at h1
  have e0 : (0#32 : BitVec 32).toInt = 0 := by decide
  have e1 : (21#32 : BitVec 32).toInt = 21 := by decide
  rw [e0] at h0
  rw [e1] at h1
  rw [BitVec.toInt_eq_toNat_cond] at h0 h1
  split at h0 <;> omega

/-- One label's bit "(0 ≤ w and w < 21) or w = 255" being 1 says the label is a class or the ignore label. -/
theorem label_of_bit (w : BitVec 32)
    (h : IntOp.ori (IntOp.andi (IntOp.cmpi .sge w 0#32) (IntOp.cmpi .slt w 21#32)) (IntOp.cmpi .eq w 255#32) = 1#1) :
    w.toNat < 21 ∨ w = 255#32 := by
  rcases IntOp.ori_eq_one.1 h with hc | he
  · obtain ⟨h0, h1⟩ := IntOp.andi_eq_one.1 hc
    exact Or.inl (toNat_lt_of_signed_range w h0 h1)
  · exact Or.inr (IntOp.cmpi_eq.1 he)

theorem pre_decode [Cert.Pre_finite_inputs.Facts] (x : FVec Ideal SX .f32) (t : IVec ST 32)
    (h : Cert.Pre_finite_inputs.fn (F := Ideal) x t = fun _ => 1#1) : Finite x ∧ Labels t := by
  haveI : Subsingleton Cert.Pre_finite_inputs.S_.Idx := ⟨fun a b => funext fun d => d.elim0⟩
  have h0 := congrFun h ValueIdx.ix0
  dsimp only [Cert.Pre_finite_inputs.fn] at h0
  obtain ⟨hx, ht⟩ := IntOp.andi_eq_one.1 h0
  refine ⟨fun i => ?_, fun i => ?_⟩
  · exact real_of_finite_bit (x i) (Host.reduce_andi_all _ _ _ _ _ hx i)
  · exact label_of_bit (t i) (Host.reduce_andi_all _ _ _ _ _ ht i)

end Cert.BCE

end
-- ==== Proof.KernelHost.lean ====
/-
  The kernel program's host arithmetic around its one region, as functions of the arrays it reads: the boundary bits
  and the weight map `1 + 2·β` computed from the labels before the region, and, after it, the mean of the eight
  per-image sums (their sum from `0`, divided by `8 · 512 · 512`).
-/
import proofs.«414120_j16509854286366_3_alg».proof.Proof.Gen.KernelIdeal

noncomputable section

namespace Cert.KernelIdeal.HostVal

open Cert.KernelIdeal Cert.KernelIdeal.Gen Idealize.ShloMosaic

variable {F : FTy → Type} [FloatOps F]

/-- The boundary bits of the interior pixels, from the labels. -/
def bmapK (t : IVec S8x512x512 32) : IVec S510x510 1 :=
  let v0 : IVec S8x510x512 32 := extractStridedSlice S8x510x512 ![0, 0, 0] t slices_S8x512x512_S8x510x512_0_0_0
  let v1 : IVec S8x510x512 32 := extractStridedSlice S8x510x512 ![0, 1, 0] t slices_S8x512x512_S8x510x512_0_1_0
  let v2 : IVec S8x510x512 32 := maxsi v0 v1
  let v3 : IVec S8x510x512 32 := extractStridedSlice S8x510x512 ![0, 2, 0] t slices_S8x512x512_S8x510x512_0_2_0
  let v4 : IVec S8x510x512 32 := maxsi v2 v3
  let v5 : IVec S8x510x512 32 := extractStridedSlice S8x510x512 ![0, 0, 0] t slices_S8x512x512_S8x510x512_0_0_0
  let v6 : IVec S8x510x512 32 := extractStridedSlice S8x510x512 ![0, 1, 0] t slices_S8x512x512_S8x510x512_0_1_0
  let v7 : IVec S8x510x512 32 := minsi v5 v6
  let v8 : IVec S8x510x512 32 := extractStridedSlice S8x510x512 ![0, 2, 0] t slices_S8x512x512_S8x510x512_0_2_0
  let v9 : IVec S8x510x512 32 := minsi v7 v8
  let v10 : IVec S8x510x512 32 := subi v4 v9
  let v11 : IVec S8x510x512 32 := broadcastInDim S8x510x512 ![] bcast_S_S8x510x512 (constantI S_ 32 0#32)
  let v12 : IVec S8x510x512 1 := cmpi .sgt v10 v11
  let v13 : IVec S8x510x510 1 := extractStridedSlice S8x510x510 ![0, 0, 0] v12 slices_S8x510x512_S8x510x510_0_0_0
  let v14 : IVec S8x510x510 1 := extractStridedSlice S8x510x510 ![0, 0, 1] v12 slices_S8x510x512_S8x510x510_0_0_1
  let v15 : IVec S8x510x510 1 := ori v13 v14
  let v16 : IVec S8x510x510 1 := extractStridedSlice S8x510x510 ![0, 0, 2] v12 slices_S8x510x512_S8x510x510_0_0_2
  let v17 : IVec S8x510x510 1 := ori v15 v16
  Host.reduce IntOp.ori v17 (constantI S_ 1 0#1) reducesTo_S8x510x510_S510x510_d0 h_S_

/-- The weight map `1 + 2·β` over one image's pixels: the boundary bits as floats written into the interior of a zero
    array (at offset (1, 1)), doubled, plus one. -/
def wmapK (t : IVec S8x512x512 32) : FVec F S512x512 .f32 :=
  let v19 : FVec F S512x512 .f32 := broadcastInDim S512x512 ![] bcast_S_S512x512 (constant S_ .f32 0x00000000#32)
  let v20 : FVec F S510x510 .f32 := uitofp .f32 (bmapK t)
  let v21 : IVec S1 32 := broadcastInDim S1 ![] bcast_S_S1 (constantI S_ 32 1#32)
  let v22 : IVec S1 32 := broadcastInDim S1 ![] bcast_S_S1 (constantI S_ 32 1#32)
  let v23 : IVec S2 32 := concatenate S2 0 [⟨S1, v21⟩, ⟨S1, v22⟩] concatenates_S1_S1_S2_d0
  let v24 : FVec F S512x512 .f32 := Host.scatter scatter_S512x512_S2_S510x510_01_n_01_0 (fun _ b => b) v19 v23 v20
  let v25 : FVec F S512x512 .f32 := broadcastInDim S512x512 ![] bcast_S_S512x512 (constant S_ .f32 0x40000000#32)
  let v26 : FVec F S512x512 .f32 := mulf v25 v24
  let v27 : FVec F S512x512 .f32 := broadcastInDim S512x512 ![] bcast_S_S512x512 (constant S_ .f32 0x3F800000#32)
  addf v27 v26

/-- The mean from the eight per-image sums `p`: their sum from `0`, divided by `8 · 512 · 512`. -/
def tailK (p : FVec F S8x1x1 .f32) : FVec F S_ .f32 :=
  let v30 : FVec F S_ .f32 := Host.reduceAdd p (constant S_ .f32 0x00000000#32) reducesTo_S8x1x1_S_d0_1_2 h_S_
  let v31 : FVec F S_ .f32 := mulf (constant S_ .f32 0x41000000#32) (constant S_ .f32 0x44000000#32)
  let v32 : FVec F S_ .f32 := mulf v31 (constant S_ .f32 0x44000000#32)
  Host.divf v30 v32

end Cert.KernelIdeal.HostVal

end
-- ==== Proof.KernelPixel.lean ====
/-
  What the kernel body leaves in its one-element output block, from its three input blocks (one image's logits and
  labels, and the weight map): the sum over the image's pixels of the weighted cross entropy `pixel`.

  The body works on whole 512×512 planes; every operation but the last reduction is pointwise, so at a pixel (h, w) each
  intermediate plane is a scalar expression in the pixel's 21 logits, its label word and its weight. The running
  maximum, the running sum of exponentials and the compare-and-select chain are each computed in several stretches of
  consecutive classes; they are written here as left folds over the stretch's list of classes, and the folds over all
  21 classes are the specification's supremum, sum and selected logit.
-/
import proofs.«414120_j16509854286366_3_alg».proof.Proof.Spec
import proofs.«414120_j16509854286366_3_alg».proof.Proof.Gen.KernelIdeal.Frame
import Idealize.ShloMosaic.Lib.ValueLayout
import Idealize.ShloMosaic.PureOps.Ideal.Laws

noncomputable section

namespace Cert.BCE

open Idealize.ShloMosaic Idealize.ShloMosaic.ValueIdx Cert.KernelIdeal Cert.KernelIdeal.Gen

/-! ## The running maximum, the running sum and the running selection, as folds over a list of classes -/

/-- The running maximum continued from m over the classes cs. -/
def pxMaxOver (x : Fin 21 → EReal) (m : EReal) (cs : List (Fin 21)) : EReal :=
  cs.foldl (fun a c => max a (x c)) m

/-- The running sum of exp (x c − M) continued from s over the classes cs. -/
def pxSumOver (x : Fin 21 → EReal) (M : EReal) (s : EReal) (cs : List (Fin 21)) : EReal :=
  cs.foldl (fun a c => a + Ideal.exp (x c - M)) s

/-- The compare-and-select chain continued from r over the classes cs: class c's logit where the label word is c,
    else what was selected before. -/
def pxSelOver (x : Fin 21 → EReal) (s : BitVec 32) (r : EReal) (cs : List (Fin 21)) : EReal :=
  cs.foldl (fun a c => Scalar.select (IntOp.cmpi .eq s (BitVec.ofNat 32 c.val)) (x c) a) r

/-- The running maximum over all classes is the supremum: it is below it term by term, and every logit is one of
    its terms. -/
theorem px_maxOver_all (x : Fin 21 → EReal) :
    pxMaxOver x (x 0) [1, 2, 3, 4, 5, 6, 7, 8, 9, 10, 11, 12, 13, 14, 15, 16, 17, 18, 19, 20] = chanMax x := by
  unfold chanMax
  simp only [pxMaxOver, List.foldl]
  apply le_antisymm
  · simp only [max_le_iff, Finset.le_sup (Finset.mem_univ _), and_self]
  · refine Finset.sup_le fun c _ => ?_
    fin_cases c <;> simp only [Fin.reduceFinMk, le_max_iff, le_refl, true_or, or_true]

/-- The running sum from 0 over all classes is the sum over the classes, taken in the same order. -/
theorem px_sumOver_all (x : Fin 21 → EReal) (M : EReal) :
    pxSumOver x M 0 [0, 1, 2, 3, 4, 5, 6, 7, 8, 9, 10, 11, 12, 13, 14, 15, 16, 17, 18, 19, 20]
      = ∑ c : Fin 21, Ideal.exp (x c - M) := by
  simp only [pxSumOver, List.foldl, Fin.sum_univ_castSucc, Fin.sum_univ_zero]
  rfl

/-- The chain over all classes selects the logit of the class the label word names, whatever it started from: the
    label is one of 21 words, and for each the chain evaluates. -/
theorem px_selOver_all (x : Fin 21 → EReal) (s : BitVec 32) (hs : s.toNat < 21) (r : EReal) :
    pxSelOver x s r [0, 1, 2, 3, 4, 5, 6, 7, 8, 9, 10, 11, 12, 13, 14, 15, 16, 17, 18, 19, 20] = x (cls s) := by
  obtain ⟨n, hn, rfl⟩ : ∃ n : Nat, n < 21 ∧ s = BitVec.ofNat 32 n :=
    ⟨s.toNat, hs, by simp⟩
  interval_cases n <;> rfl

/-! ## Pointwise operations and layout operations read at a pixel -/

theorem px_exp_apply {s : Shape} {φ : FTy} (a : FVec Ideal s φ) (i : s.Idx) :
    Idealize.ShloMosaic.exp a i = Ideal.exp (a i) := rfl

theorem px_log_apply {s : Shape} {φ : FTy} (a : FVec Ideal s φ) (i : s.Idx) :
    Idealize.ShloMosaic.log a i = Ideal.log (a i) := rfl

theorem px_cmpi_apply {s : Shape} {w : Nat} (p : CmpIPredicate) (a b : IVec s w) (i : s.Idx) :
    cmpi p a b i = IntOp.cmpi p (a i) (b i) := rfl

/-- Class c's plane of the logits, read at pixel (h, w). -/
theorem px_plane_apply (v1 : FVec Ideal S21x512x512 .f32) (c : Fin 21) (n : Nat) (hn : c.val = n)
    (hs : S21x512x512.Slices ![n, 0, 0] S1x512x512) (hc : S1x512x512.ShapeCasts S512x512) (h w : Fin 512) :
    shapeCast S512x512 (extractStridedSlice S1x512x512 ![n, 0, 0] v1 hs) hc (ix2 h w) = v1 (ix3 c h w) := by
  subst hn
  refine (shapeCast_1ab_ab_apply _ hc h w).trans ?_
  refine extractStridedSlice_apply _ v1 hs (ix3 (0 : Fin 1) h w) (ix3 c h w) (fun a => ?_)
  match a with
  | ⟨0, _⟩ => rfl
  | ⟨1, _⟩ => exact (Nat.zero_add _).symm
  | ⟨2, _⟩ => exact (Nat.zero_add _).symm

theorem px_pay2_apply (v0 : Vec Ideal S1x21x512x512 .f32) (c : Fin 21) (h w : Fin 512) :
    k0_pay2 (F := Ideal) v0 (ix3 c h w) = v0 (ix4 (0 : Fin 1) c h w) := by
  unfold k0_pay2
  exact shapeCast_1abc_abc_apply _ _ c h w

theorem px_pay3_apply (v2 : Vec Ideal S1x512x512 .i32) (h w : Fin 512) :
    k0_pay3 (F := Ideal) v2 (ix2 h w) = v2 (ix3 (0 : Fin 1) h w) := by
  unfold k0_pay3
  exact shapeCast_1ab_ab_apply _ _ h w

theorem px_pay4_eq (v4 : Vec Ideal S512x512 .f32) : k0_pay4 (F := Ideal) v4 = v4 := by
  unfold k0_pay4
  exact shapeCast_self _ _

theorem px_pay5_apply (v2 : Vec Ideal S1x512x512 .i32) (h w : Fin 512) :
    k0_pay5 (F := Ideal) v2 (ix2 h w) = IntOp.cmpi .ne (v2 (ix3 (0 : Fin 1) h w)) 255#32 := by
  unfold k0_pay5
  simp only [px_cmpi_apply, broadcast_apply, px_pay3_apply]

theorem px_pay6_apply (v2 : Vec Ideal S1x512x512 .i32) (h w : Fin 512) :
    k0_pay6 (F := Ideal) v2 (ix2 h w)
      = Scalar.select (IntOp.cmpi .ne (v2 (ix3 (0 : Fin 1) h w)) 255#32) (v2 (ix3 (0 : Fin 1) h w)) 0#32 := by
  unfold k0_pay6
  simp only [select_apply, broadcast_apply, px_pay3_apply, px_pay5_apply]

/-- Rewriting every plane of the logits at a pixel, and every pointwise operation. -/
local macro "px_simp" : tactic => `(tactic| simp only [
  k0_pay9, k0_pay10, k0_pay11, k0_pay13, k0_pay15, k0_pay16, k0_pay17, k0_pay18, k0_pay19, k0_pay20, k0_pay23,
  k0_pay24, k0_pay25, k0_pay26, k0_pay27, k0_pay28, k0_pay30,
  maximumf_apply, subf_apply, addf_apply, mulf_apply, px_exp_apply, px_log_apply, px_cmpi_apply, select_apply, broadcast_apply,
  px_plane_apply _ 0 0 rfl, px_plane_apply _ 1 1 rfl, px_plane_apply _ 2 2 rfl, px_plane_apply _ 3 3 rfl, px_plane_apply _ 4 4 rfl,
  px_plane_apply _ 5 5 rfl, px_plane_apply _ 6 6 rfl, px_plane_apply _ 7 7 rfl, px_plane_apply _ 8 8 rfl, px_plane_apply _ 9 9 rfl,
  px_plane_apply _ 10 10 rfl, px_plane_apply _ 11 11 rfl, px_plane_apply _ 12 12 rfl, px_plane_apply _ 13 13 rfl,
  px_plane_apply _ 14 14 rfl, px_plane_apply _ 15 15 rfl, px_plane_apply _ 16 16 rfl, px_plane_apply _ 17 17 rfl,
  px_plane_apply _ 18 18 rfl, px_plane_apply _ 19 19 rfl, px_plane_apply _ 20 20 rfl])

theorem px_pay7_apply (v0 : Vec Ideal S1x21x512x512 .f32) (h w : Fin 512) :
    k0_pay7 (F := Ideal) v0 (ix2 h w)
      = pxMaxOver (fun c => v0 (ix4 (0 : Fin 1) c h w)) (v0 (ix4 (0 : Fin 1) 0 h w)) [1, 2, 3, 4, 5, 6, 7, 8, 9, 10, 11, 12] := by
  unfold k0_pay7
  px_simp
  simp only [px_pay2_apply]
  rfl

theorem px_pay8_apply (v1 : FVec Ideal S21x512x512 .f32) (v47 : FVec Ideal S512x512 .f32) (h w : Fin 512) :
    k0_pay8 (F := Ideal) v1 v47 (ix2 h w)
      = pxMaxOver (fun c => v1 (ix3 c h w)) (v47 (ix2 h w)) [13, 14, 15, 16, 17, 18, 19, 20] := by
  unfold k0_pay8
  px_simp
  rfl

theorem px_pay12_apply (v1 : FVec Ideal S21x512x512 .f32) (v9 : IVec S512x512 32) (h w : Fin 512) :
    k0_pay12 (F := Ideal) v1 v9 (ix2 h w)
      = pxSelOver (fun c => v1 (ix3 c h w)) (v9 (ix2 h w)) (Ideal.ofBits .f32 0x00000000#32) [0, 1, 2] := by
  unfold k0_pay12
  px_simp
  rfl

theorem px_pay14_apply (v1 : FVec Ideal S21x512x512 .f32) (v47 : FVec Ideal S512x512 .f32) (h w : Fin 512) :
    k0_pay14 (F := Ideal) v1 v47 (ix2 h w)
      = pxSumOver (fun c => v1 (ix3 c h w)) (k0_pay8 (F := Ideal) v1 v47 (ix2 h w)) (Ideal.ofBits .f32 0x00000000#32) [0, 1, 2, 3] := by
  unfold k0_pay14
  px_simp
  rfl

theorem px_pay21_apply (v1 : FVec Ideal S21x512x512 .f32) (v71 v102 : FVec Ideal S512x512 .f32) (h w : Fin 512) :
    k0_pay21 (F := Ideal) v1 v71 v102 (ix2 h w)
      = pxSumOver (fun c => v1 (ix3 c h w)) (v71 (ix2 h w)) (v102 (ix2 h w)) [4, 5, 6, 7, 8, 9] := by
  unfold k0_pay21
  px_simp
  rfl

theorem px_pay22_apply (v1 : FVec Ideal S21x512x512 .f32) (v9 : IVec S512x512 32) (v97 v99 : FVec Ideal S512x512 .f32)
    (h w : Fin 512) :
    k0_pay22 (F := Ideal) v1 v9 v97 v99 (ix2 h w)
      = pxSelOver (fun c => v1 (ix3 c h w)) (v9 (ix2 h w))
          (Scalar.select (IntOp.cmpi .eq (v9 (ix2 h w)) 3#32) (v99 (ix2 h w)) (v97 (ix2 h w))) [4, 5, 6, 7, 8, 9] := by
  unfold k0_pay22
  px_simp
  rfl

theorem px_pay13_apply (v1 : FVec Ideal S21x512x512 .f32) (h w : Fin 512) :
    k0_pay13 (F := Ideal) v1 (ix2 h w) = v1 (ix3 3 h w) := by
  px_simp

theorem px_pay23_apply (v1 : FVec Ideal S21x512x512 .f32) (h w : Fin 512) :
    k0_pay23 (F := Ideal) v1 (ix2 h w) = v1 (ix3 10 h w) := by
  px_simp

theorem px_pay30_apply (v1 : FVec Ideal S21x512x512 .f32) (h w : Fin 512) :
    k0_pay30 (F := Ideal) v1 (ix2 h w) = v1 (ix3 16 h w) := by
  px_simp

theorem px_pay29_apply (v1 : FVec Ideal S21x512x512 .f32) (v9 : IVec S512x512 32) (v153 v155 : FVec Ideal S512x512 .f32)
    (h w : Fin 512) :
    k0_pay29 (F := Ideal) v1 v9 v153 v155 (ix2 h w)
      = pxSelOver (fun c => v1 (ix3 c h w)) (v9 (ix2 h w))
          (Scalar.select (IntOp.cmpi .eq (v9 (ix2 h w)) 10#32) (v155 (ix2 h w)) (v153 (ix2 h w))) [11, 12, 13, 14, 15] := by
  unfold k0_pay29
  px_simp
  rfl

theorem px_pay31_apply (v1 : FVec Ideal S21x512x512 .f32) (v71 v150 v155 : FVec Ideal S512x512 .f32) (h w : Fin 512) :
    k0_pay31 (F := Ideal) v1 v71 v150 v155 (ix2 h w)
      = pxSumOver (fun c => v1 (ix3 c h w)) (v71 (ix2 h w))
          (v150 (ix2 h w) + Ideal.exp (v155 (ix2 h w) - v71 (ix2 h w))) [11, 12, 13, 14, 15, 16] := by
  unfold k0_pay31
  px_simp
  rfl

theorem px_pay32_apply (v9 : IVec S512x512 32) (h w : Fin 512) :
    k0_pay32 v9 (ix2 h w) = IntOp.cmpi .eq (v9 (ix2 h w)) 16#32 := by
  unfold k0_pay32
  px_simp

/-! ## The block's sum over its pixels -/

/-- A sum over the indices of a one-image block is the double sum over rows and columns. -/
theorem px_sum_plane {M : Type*} [AddCommMonoid M] (f : S1x512x512.Idx → M) :
    ∑ i, f i = ∑ h : Fin 512, ∑ w : Fin 512, f (ix3 (0 : Fin 1) h w) := by
  let e : S1x512x512.Idx ≃ Fin 512 × Fin 512 :=
    { toFun := fun i => (i 1, i 2)
      invFun := fun p => ix3 (0 : Fin 1) p.1 p.2
      left_inv := fun i => by
        funext a
        match a with
        | ⟨0, _⟩ => exact Subsingleton.elim (α := Fin 1) _ _
        | ⟨1, _⟩ => rfl
        | ⟨2, _⟩ => rfl
      right_inv := fun _ => rfl }
  rw [← Equiv.sum_comp e.symm f, Fintype.sum_prod_type]
  rfl

/-- The body's last reduction: summing a one-image block over its rows and columns into one element, then reading that
    element, is the sum over all of the block's indices (the accumulator is the zero word and is left out). -/
theorem px_total (src : FVec Ideal S1x512x512 .f32) (hφ : FKind.Formats .f32)
    (hacc : (0x00000000#32 : BitVec 32) = 0x00000000#32) (h1 : S1.ShapeCasts S1x1x1)
    (hp : ∀ a, (![0, 0, 0] : Fin 3 → Nat) a < S1x1x1.size a) (j : S1x1x1.Idx) :
    broadcast S1x1x1 (extractAt ![0, 0, 0]
      (shapeCast S1x1x1 (multiReduction (F := Ideal) .add [1, 2] S1 src 0x00000000#32 reduces_S1x512x512_S1 hφ hacc) h1)
        hp) j
      = ∑ i, src i :=
  Ideal.multiReduction_add_total src _ reduces_S1x512x512_S1 (fun b => match b with | ⟨0, _⟩ => rfl) hφ hacc _

/-- The last stretch of the body: the value stored is the sum over the pixels of the masked, weighted cross entropy,
    from the running sum, the running selection and the running maximum as they stand after class 16. -/
theorem px_pay1_apply (v1 : FVec Ideal S21x512x512 .f32) (v5 : FVec Ideal S512x512 .f32) (v7 : IVec S512x512 1)
    (v9 : IVec S512x512 32) (v71 v201 v203 v206 : FVec Ideal S512x512 .f32) (v208 : IVec S512x512 1) (j : S1x1x1.Idx) :
    k0_pay1 (F := Ideal) v1 v5 v7 v9 v71 v201 v203 v206 v208 j
      = ∑ h : Fin 512, ∑ w : Fin 512,
          Scalar.select (v7 (ix2 h w))
            ((Ideal.log (pxSumOver (fun c => v1 (ix3 c h w)) (v71 (ix2 h w)) (v206 (ix2 h w)) [17, 18, 19, 20])
                + v71 (ix2 h w))
              - pxSelOver (fun c => v1 (ix3 c h w)) (v9 (ix2 h w))
                  (Scalar.select (v208 (ix2 h w)) (v203 (ix2 h w)) (v201 (ix2 h w))) [17, 18, 19, 20])
            (Ideal.ofBits .f32 0x00000000#32) * v5 (ix2 h w) := by
  unfold k0_pay1
  refine Eq.trans (px_total _ _ _ _ _ j) ?_
  rw [px_sum_plane]
  refine Finset.sum_congr rfl fun h _ => Finset.sum_congr rfl fun w _ => ?_
  rw [shapeCast_ab_1ab_apply]
  px_simp
  rfl

/-! ## The body's arithmetic at one pixel -/

/-- The running maximum over all 21 classes, in the two stretches the body computes it in. -/
def pxMax (x : Fin 21 → EReal) : EReal :=
  pxMaxOver x (pxMaxOver x (x 0) [1, 2, 3, 4, 5, 6, 7, 8, 9, 10, 11, 12]) [13, 14, 15, 16, 17, 18, 19, 20]

/-- The sum of the exponentials, from the zero word, in the five stretches the body computes it in. -/
def pxSum (x : Fin 21 → EReal) : EReal :=
  pxSumOver x (pxMax x)
    (pxSumOver x (pxMax x)
      (pxSumOver x (pxMax x) (pxSumOver x (pxMax x) (Ideal.ofBits .f32 0x00000000#32) [0, 1, 2, 3]) [4, 5, 6, 7, 8, 9]
        + Ideal.exp (x 10 - pxMax x))
      [11, 12, 13, 14, 15, 16])
    [17, 18, 19, 20]

/-- The compare-and-select chain over all 21 classes, from the zero word, in the stretches the body computes it in. -/
def pxSel (x : Fin 21 → EReal) (s : BitVec 32) : EReal :=
  pxSelOver x s
    (Scalar.select (IntOp.cmpi .eq s 16#32) (x 16)
      (pxSelOver x s
        (Scalar.select (IntOp.cmpi .eq s 10#32) (x 10)
          (pxSelOver x s
            (Scalar.select (IntOp.cmpi .eq s 3#32) (x 3)
              (pxSelOver x s (Ideal.ofBits .f32 0x00000000#32) [0, 1, 2]))
            [4, 5, 6, 7, 8, 9]))
        [11, 12, 13, 14, 15]))
    [17, 18, 19, 20]

/-- What the body computes at a pixel with logits x, label word t and weight w. -/
def pxKernelPixel (x : Fin 21 → EReal) (t : BitVec 32) (w : EReal) : EReal :=
  Scalar.select (IntOp.cmpi .ne t 255#32)
    ((Ideal.log (pxSum x) + pxMax x)
      - pxSel x (Scalar.select (IntOp.cmpi .ne t 255#32) t 0#32))
    (Ideal.ofBits .f32 0x00000000#32) * w

theorem px_max_eq (x : Fin 21 → EReal) : pxMax x = chanMax x := px_maxOver_all x

theorem px_sum_eq (x : Fin 21 → EReal) : pxSum x = expSum x := by
  unfold pxSum
  rw [px_max_eq, Ideal.ofBits_zero_f32]
  exact px_sumOver_all x (chanMax x)

theorem px_sel_eq (x : Fin 21 → EReal) (s : BitVec 32) (hs : s.toNat < 21) : pxSel x s = x (cls s) :=
  px_selOver_all x s hs _

/-- The body's arithmetic at a pixel is the specification's weighted cross entropy, when the label is a class or the
    ignore label: at the ignore label both are 0 · w; at a class the mask is set, the label word is kept, the
    maximum is the supremum, the running sum is the sum, and the chain selects the label's logit. -/
theorem px_kernelPixel_eq (x : Fin 21 → EReal) (t : BitVec 32) (w : EReal) (ht : t.toNat < 21 ∨ t = 255#32) :
    pxKernelPixel x t w = pixel x t w := by
  unfold pxKernelPixel pixel
  by_cases h : t = 255#32
  · subst h
    rw [if_pos rfl, show IntOp.cmpi .ne (255#32 : BitVec 32) 255#32 = 0#1 from rfl, select_zero, Ideal.ofBits_zero_f32]
  · have ht' : t.toNat < 21 := ht.resolve_right h
    have hm : IntOp.cmpi .ne t 255#32 = 1#1 := by
      unfold IntOp.cmpi
      show BitVec.ofBool (t != 255#32) = 1#1
      rw [bne_iff_ne.mpr h]
      rfl
    rw [if_neg h, hm]
    simp only [select_one]
    rw [px_sum_eq, px_max_eq, px_sel_eq x t ht']

/-! ## The block -/

/-- The body's stored value is the image's sum of `pixel`, when every label of the block is a class or the ignore label. -/
theorem block_sum (x0 : Vec Ideal S1x21x512x512 .f32) (x1 : Vec Ideal S1x512x512 .i32) (x2 : Vec Ideal S512x512 .f32)
    (hl : ∀ h w : Fin 512, BitVec.toNat (x1 (ix3 (0 : Fin 1) h w)) < 21 ∨ x1 (ix3 (0 : Fin 1) h w) = (255#32 : BitVec 32))
    (j : S1x1x1.Idx) :
    out0_3 (F := Ideal) x0 x1 x2 j
      = ∑ h : Fin 512, ∑ w : Fin 512,
          pixel (fun c => x0 (ix4 (0 : Fin 1) c h w)) (x1 (ix3 (0 : Fin 1) h w)) (x2 (ix2 h w)) := by
  have hz2 : (![0, 0] : Fin 2 → Nat) = fun _ => 0 := funext fun a => by fin_cases a <;> rfl
  have hz3 : (![0, 0, 0] : Fin 3 → Nat) = fun _ => 0 := funext fun a => by fin_cases a <;> rfl
  have hz4 : (![0, 0, 0, 0] : Fin 4 → Nat) = fun _ => 0 := funext fun a => by fin_cases a <;> rfl
  unfold out0_3
  rw [View.canon_unit_zero hz3]
  simp only [View.ld_unit_zero (S := S1x21x512x512) hz4, View.ld_unit_zero (S := S1x512x512) hz3,
    View.ld_unit_zero (S := S512x512) hz2]
  rw [px_pay1_apply]
  refine Finset.sum_congr rfl fun h _ => Finset.sum_congr rfl fun w _ => ?_
  simp only [px_pay4_eq, px_pay5_apply, px_pay6_apply, px_pay8_apply, px_pay7_apply, px_pay29_apply, px_pay22_apply, px_pay12_apply,
    px_pay13_apply, px_pay23_apply, px_pay30_apply, px_pay31_apply, px_pay21_apply, px_pay14_apply, px_pay32_apply, px_pay2_apply]
  exact px_kernelPixel_eq (fun c => x0 (ix4 (0 : Fin 1) c h w)) (x1 (ix3 (0 : Fin 1) h w)) (x2 (ix2 h w)) (hl h w)

end Cert.BCE

end
-- ==== Proof.LibScatterSet.lean ====
/-
  An overwriting scatter (`x.at[window].set(u)`: the combining function returns the update) read at one element.
  When the places the updates land on are pairwise distinct, an element some update lands on holds that update,
  and an element no update lands on keeps the operand's value — whatever order the updates are applied in.
-/
import Idealize.ShloMosaic.PureOps.ShapeOps

namespace Cert.LibScatterSet

open Idealize.ShloMosaic

variable {s si u : Shape} {α : Type} {w : Nat}

/-- One step of the overwriting scatter: the update at position `n` (in row-major order) replaces the element it lands
    on, and is dropped when it lands outside the operand. -/
private def step (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

/-- The overwriting scatter is the left fold of the steps over the positions of the updates. -/
private theorem scatter_eq_foldl (d : ScatterDims s si u) (x : s.Idx → α) (idx : IVec si w) (upd : u.Idx → α) :
    Host.scatter d (fun _ b => b) x idx upd = (List.finRange u.numel).foldl (step d idx upd) x := rfl

/-- A step whose update lands on `i` leaves that update at `i`. -/
private theorem step_of_hit (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- A step whose update does not land on `i` leaves the element at `i` as it was. -/
private theorem step_of_miss (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  cases hr : d.resultIdx? (u.rowMajor.symm n) idx with
  | none => rfl
  | some k =>
    have hik : i ≠ k := fun e => h (by rw [hr, e])
    exact if_neg hik

/-- Steps over a list of positions none of which lands on `i` leave the element at `i` as it was. -/
private theorem foldl_step_of_miss (d : ScatterDims s si u) (idx : IVec si w) (upd : u.Idx → α) (i : s.Idx)
    (l : List (Fin u.numel)) (h : ∀ n ∈ l, d.resultIdx? (u.rowMajor.symm n) idx ≠ some i) (x : s.Idx → α) :
    l.foldl (step d idx upd) x i = x i := by
  induction l generalizing x with
  | nil => rfl
  | cons n l ih =>
    rw [List.foldl_cons, ih (fun m hm => h m (List.mem_cons_of_mem _ hm))]
    exact step_of_miss d idx upd x n i (h n List.mem_cons_self)

/-- When every update that lands on `i` is the update `j`, steps over a list of positions one of which lands on
    `i` leave `upd j` there (the last of them writes it, and every earlier one wrote the same). -/
private theorem foldl_step_of_hit (d : ScatterDims s si u) (idx : IVec si w) (upd : u.Idx → α) (i : s.Idx) (j : u.Idx)
    (hj : ∀ n, d.resultIdx? (u.rowMajor.symm n) idx = some i → u.rowMajor.symm n = j)
    (l : List (Fin u.numel)) (h : ∃ n ∈ l, d.resultIdx? (u.rowMajor.symm n) idx = some i) (x : s.Idx → α) :
    l.foldl (step d idx upd) x i = upd j := by
  induction l generalizing x with
  | nil => obtain ⟨n, hn, _⟩ := h; cases hn
  | cons m l ih =>
    rw [List.foldl_cons]
    by_cases hl : ∃ n ∈ l, d.resultIdx? (u.rowMajor.symm n) idx = some i
    · exact ih hl _
    · have hmiss : ∀ n ∈ l, d.resultIdx? (u.rowMajor.symm n) idx ≠ some i := fun n hn e => hl ⟨n, hn, e⟩
      rw [foldl_step_of_miss d idx upd i l hmiss]
      obtain ⟨n, hn, hni⟩ := h
      have hm : d.resultIdx? (u.rowMajor.symm m) idx = some i := by
        rcases List.mem_cons.1 hn with e | hnl
        · rw [← e]; exact hni
        · exact absurd hni (hmiss n hnl)
      rw [step_of_hit d idx upd x m i hm, hj m hm]

/-- An element no update lands on keeps the operand's value. -/
theorem scatter_set_of_miss (d : ScatterDims s si u) (x : s.Idx → α) (idx : IVec si w) (upd : u.Idx → α)
    (i : s.Idx) (h : ∀ j, d.resultIdx? j idx ≠ some i) :
    Host.scatter d (fun _ b => b) x idx upd i = x i := by
  rw [scatter_eq_foldl]
  exact foldl_step_of_miss d idx upd i _ (fun n _ => h _) x

/-- The landing places being pairwise distinct, the element update `j` lands on holds `upd j`. -/
theorem scatter_set_of_hit (d : ScatterDims s si u) (x : s.Idx → α) (idx : IVec si w) (upd : u.Idx → α)
    (hinj : ∀ j j' i, d.resultIdx? j idx = some i → d.resultIdx? j' idx = some i → j = j')
    (j : u.Idx) (i : s.Idx) (h : d.resultIdx? j idx = some i) :
    Host.scatter d (fun _ b => b) x idx upd i = upd j := by
  rw [scatter_eq_foldl]
  refine foldl_step_of_hit d idx upd i j (fun n hn => hinj _ _ i hn h) _ ⟨u.rowMajor j, List.mem_finRange _, ?_⟩ x
  rw [Equiv.symm_apply_apply]
  exact h

end Cert.LibScatterSet
-- ==== Proof.Weights.lean ====
/-
  Both programs' weight at a pixel is `wgt`: the boundary bits are one chain of integer operations on the labels in
  both, written into the interior of a zero array (the kernel's one image-sized, the reference's one per image), doubled,
  plus one.
-/
import proofs.«414120_j16509854286366_3_alg».proof.Proof.Spec
import proofs.«414120_j16509854286366_3_alg».proof.Proof.KernelHost
import proofs.«414120_j16509854286366_3_alg».proof.Proof.RefReadP
import proofs.«414120_j16509854286366_3_alg».proof.Proof.LibScatterSet

noncomputable section

namespace Cert.BCE

open Idealize.ShloMosaic Idealize.ShloMosaic.ValueIdx

/-! ## The boundary bits -/

/-- The kernel program's boundary bits are `bmap`: the same operations on the labels, in the same order. -/
theorem bmapK_eq (t : IVec ST 32) : Cert.KernelIdeal.HostVal.bmapK t = bmap t := rfl

/-- The reference's boundary bits are `bmap`: the same operations on the labels, in the same order. -/
theorem bmapR_eq (t : IVec ST 32) : Cert.ReferenceIdeal.ReadP.val_main_v27 (F := Ideal) t = bmap t := rfl

namespace Weights

/-! ## A scatter's landing place from its window start and window coordinate -/

section Landing
variable {s si u : Shape} {w : Nat}

/-- Every scatter index being the word `c`, the window starts at `c` on the scattered axes and at `0` on the others. -/
theorem start_of_const (d : ScatterDims s si u) (j : u.Idx) (idx : IVec si w) (c : BitVec w) (hidx : ∀ k, idx k = c)
    (a : Fin s.rank) : d.start j idx a = if a ∈ d.scatterDimsToOperandDims then c.toInt else 0 := by
  unfold ScatterDims.start
  by_cases ha : a ∈ d.scatterDimsToOperandDims
  · rw [dif_pos ha, if_pos ha, hidx]
  · rw [dif_neg ha, if_neg ha]

/-- An update whose start plus window coordinate is `i`'s coordinate on every axis lands on `i`. -/
theorem resultIdx?_eq_some (d : ScatterDims s si u) (j : u.Idx) (idx : IVec si w) (i : s.Idx)
    (h : ∀ a, d.start j idx a + d.window j a = ((i a).val : Int)) : d.resultIdx? j idx = some i := by
  unfold ScatterDims.resultIdx?
  have hh : ∀ a, 0 ≤ d.start j idx a + d.window j a ∧ d.start j idx a + d.window j a < s.size a := fun a => by
    have := h a; have := (i a).isLt; omega
  rw [dif_pos hh]
  exact congrArg some (funext fun a => Fin.ext (by
    show (d.start j idx a + d.window j a).toNat = (i a).val
    have := h a; omega))

end Landing

/-- Two one-element vectors of the same word `c` joined end to end: the two-element vector of `c`. -/
theorem concatenate_pair_const (x₁ x₂ : (⟨1, ![1]⟩ : Shape).Idx → BitVec 32) (c : BitVec 32) (h1 : ∀ i, x₁ i = c)
    (h2 : ∀ i, x₂ i = c) (h : Shape.Concatenates [(⟨1, ![1]⟩ : Shape), ⟨1, ![1]⟩] ⟨1, ![2]⟩ 0)
    (k : (⟨1, ![2]⟩ : Shape).Idx) :
    concatenate (⟨1, ![2]⟩ : Shape) 0 [⟨(⟨1, ![1]⟩ : Shape), x₁⟩, ⟨(⟨1, ![1]⟩ : Shape), x₂⟩] h k = c := by
  have hk : (k 0).val < 2 := (k 0).isLt
  by_cases h0 : (k 0).val = 0
  · refine (concatenate_pair_apply_left 0 x₁ x₂ h k rfl (ix1 (0 : Fin 1)) (fun b => ?_)).trans (h1 _)
    match b with
    | ⟨0, _⟩ => exact h0.symm
  · refine (concatenate_pair_apply_right 0 x₁ x₂ h k rfl rfl (ix1 (0 : Fin 1)) (fun b hb => ?_) ?_).trans (h2 _)
    · match b with
      | ⟨0, _⟩ => exact absurd rfl hb
    · show 0 + 1 = (k 0).val
      omega

/-- The word 1 read as a signed number. -/
private theorem one_toInt : (1#32 : BitVec 32).toInt = 1 := by decide

/-! ## The kernel program's scatter: the interior of one image -/

/-- The kernel program's scatter record: both axes of the image scattered, both axes of the update its window. -/
private abbrev dK : ScatterDims ⟨2, ![512, 512]⟩ ⟨1, ![2]⟩ ⟨2, ![510, 510]⟩ :=
  Cert.KernelIdeal.scatter_S512x512_S2_S510x510_01_n_01_0

/-- With the index vector (1, 1), update (p, q) lands on pixel (p + 1, q + 1). -/
theorem landK (idx : IVec ⟨1, ![2]⟩ 32) (hidx : ∀ k, idx k = 1#32) (j : (⟨2, ![510, 510]⟩ : Shape).Idx)
    (i : (⟨2, ![512, 512]⟩ : Shape).Idx) (h0 : (i 0).val = (j 0).val + 1) (h1 : (i 1).val = (j 1).val + 1) :
    dK.resultIdx? j idx = some i := by
  refine resultIdx?_eq_some dK j idx i (fun a => ?_)
  rw [start_of_const dK j idx 1#32 hidx a, one_toInt]
  match a with
  | ⟨0, _⟩ =>
    have hw : dK.window j 0 = (j 0).val := rfl
    show (if (0 : Fin 2) ∈ dK.scatterDimsToOperandDims then (1 : Int) else 0) + (dK.window j 0 : Int) = ((i 0).val : Int)
    rw [if_pos (by decide), hw, h0]; omega
  | ⟨1, _⟩ =>
    have hw : dK.window j 1 = (j 1).val := rfl
    show (if (1 : Fin 2) ∈ dK.scatterDimsToOperandDims then (1 : Int) else 0) + (dK.window j 1 : Int) = ((i 1).val : Int)
    rw [if_pos (by decide), hw, h1]; omega

/-- … and on no other pixel. -/
theorem landK_inv (idx : IVec ⟨1, ![2]⟩ 32) (hidx : ∀ k, idx k = 1#32) (j : (⟨2, ![510, 510]⟩ : Shape).Idx)
    (i : (⟨2, ![512, 512]⟩ : Shape).Idx) (h : dK.resultIdx? j idx = some i) :
    (i 0).val = (j 0).val + 1 ∧ (i 1).val = (j 1).val + 1 := by
  have h' := landK idx hidx j
    (ix2 (⟨(j 0).val + 1, by have := idx2_lt0 j; omega⟩ : Fin 512) (⟨(j 1).val + 1, by have := idx2_lt1 j; omega⟩ : Fin 512)) rfl rfl
  rw [h] at h'
  have e := Option.some.inj h'
  subst e
  exact ⟨rfl, rfl⟩

/-- The kernel program's overwriting scatter at pixel (h, w): the update at (h − 1, w − 1) in the interior, the
    operand's element on the rim. -/
theorem scatterK_apply {α : Type} (x : (⟨2, ![512, 512]⟩ : Shape).Idx → α) (idx : IVec ⟨1, ![2]⟩ 32) (hidx : ∀ k, idx k = 1#32)
    (upd : (⟨2, ![510, 510]⟩ : Shape).Idx → α) (h w : Fin 512) :
    Host.scatter dK (fun _ b => b) x idx upd (ix2 h w) =
      if hi : (1 ≤ h.val ∧ h.val ≤ 510) ∧ (1 ≤ w.val ∧ w.val ≤ 510) then
        upd (ix2 (⟨h.val - 1, by omega⟩ : Fin 510) (⟨w.val - 1, by omega⟩ : Fin 510))
      else x (ix2 h w) := by
  by_cases hi : (1 ≤ h.val ∧ h.val ≤ 510) ∧ (1 ≤ w.val ∧ w.val ≤ 510)
  · rw [dif_pos hi]
    refine Cert.LibScatterSet.scatter_set_of_hit dK x idx upd (fun j j' i hj hj' => ?_) _ _
      (landK idx hidx _ _ (by show h.val = h.val - 1 + 1; omega) (by show w.val = w.val - 1 + 1; omega))
    obtain ⟨a0, a1⟩ := landK_inv idx hidx j i hj
    obtain ⟨b0, b1⟩ := landK_inv idx hidx j' i hj'
    funext a
    match a with
    | ⟨0, _⟩ => exact Fin.ext (by show (j 0).val = (j' 0).val; omega)
    | ⟨1, _⟩ => exact Fin.ext (by show (j 1).val = (j' 1).val; omega)
  · rw [dif_neg hi]
    refine Cert.LibScatterSet.scatter_set_of_miss dK x idx upd _ (fun j hj => hi ?_)
    obtain ⟨a0, a1⟩ := landK_inv idx hidx j _ hj
    have a0' : h.val = (j 0).val + 1 := a0
    have a1' : w.val = (j 1).val + 1 := a1
    have := idx2_lt0 j; have := idx2_lt1 j
    omega

/-! ## The reference's scatter: the interior of each of the eight images -/

/-- The reference's scatter record: the two pixel axes scattered, all three axes of the update its window. -/
private abbrev dR : ScatterDims ⟨3, ![8, 512, 512]⟩ ⟨1, ![2]⟩ ⟨3, ![8, 510, 510]⟩ :=
  Cert.ReferenceIdeal.scatter_S8x512x512_S2_S8x510x510_012_n_12_0

/-- With the index vector (1, 1), update (b, p, q) lands on pixel (p + 1, q + 1) of image b. -/
theorem landR (idx : IVec ⟨1, ![2]⟩ 32) (hidx : ∀ k, idx k = 1#32) (j : (⟨3, ![8, 510, 510]⟩ : Shape).Idx)
    (i : (⟨3, ![8, 512, 512]⟩ : Shape).Idx) (h0 : (i 0).val = (j 0).val) (h1 : (i 1).val = (j 1).val + 1)
    (h2 : (i 2).val = (j 2).val + 1) :
    dR.resultIdx? j idx = some i := by
  refine resultIdx?_eq_some dR j idx i (fun a => ?_)
  rw [start_of_const dR j idx 1#32 hidx a, one_toInt]
  match a with
  | ⟨0, _⟩ =>
    have hw : dR.window j 0 = (j 0).val := rfl
    show (if (0 : Fin 3) ∈ dR.scatterDimsToOperandDims then (1 : Int) else 0) + (dR.window j 0 : Int) = ((i 0).val : Int)
    rw [if_neg (by decide), hw, h0]; omega
  | ⟨1, _⟩ =>
    have hw : dR.window j 1 = (j 1).val := rfl
    show (if (1 : Fin 3) ∈ dR.scatterDimsToOperandDims then (1 : Int) else 0) + (dR.window j 1 : Int) = ((i 1).val : Int)
    rw [if_pos (by decide), hw, h1]; omega
  | ⟨2, _⟩ =>
    have hw : dR.window j 2 = (j 2).val := rfl
    show (if (2 : Fin 3) ∈ dR.scatterDimsToOperandDims then (1 : Int) else 0) + (dR.window j 2 : Int) = ((i 2).val : Int)
    rw [if_pos (by decide), hw, h2]; omega

/-- … and on no other. -/
theorem landR_inv (idx : IVec ⟨1, ![2]⟩ 32) (hidx : ∀ k, idx k = 1#32) (j : (⟨3, ![8, 510, 510]⟩ : Shape).Idx)
    (i : (⟨3, ![8, 512, 512]⟩ : Shape).Idx) (h : dR.resultIdx? j idx = some i) :
    (i 0).val = (j 0).val ∧ (i 1).val = (j 1).val + 1 ∧ (i 2).val = (j 2).val + 1 := by
  have l1 : (j 1).val < 510 := (j 1).isLt
  have l2 : (j 2).val < 510 := (j 2).isLt
  have h' := landR idx hidx j
    (ix3 (⟨(j 0).val, (j 0).isLt⟩ : Fin 8) (⟨(j 1).val + 1, by omega⟩ : Fin 512) (⟨(j 2).val + 1, by omega⟩ : Fin 512)) rfl rfl rfl
  rw [h] at h'
  have e := Option.some.inj h'
  subst e
  exact ⟨rfl, rfl, rfl⟩

/-- The reference's overwriting scatter at pixel (h, w) of image b: the update at (b, h − 1, w − 1) in the interior, the
    operand's element on the rim. -/
theorem scatterR_apply {α : Type} (x : (⟨3, ![8, 512, 512]⟩ : Shape).Idx → α) (idx : IVec ⟨1, ![2]⟩ 32)
    (hidx : ∀ k, idx k = 1#32) (upd : (⟨3, ![8, 510, 510]⟩ : Shape).Idx → α) (b : Fin 8) (h w : Fin 512) :
    Host.scatter dR (fun _ b => b) x idx upd (ix3 b h w) =
      if hi : (1 ≤ h.val ∧ h.val ≤ 510) ∧ (1 ≤ w.val ∧ w.val ≤ 510) then
        upd (ix3 b (⟨h.val - 1, by omega⟩ : Fin 510) (⟨w.val - 1, by omega⟩ : Fin 510))
      else x (ix3 b h w) := by
  by_cases hi : (1 ≤ h.val ∧ h.val ≤ 510) ∧ (1 ≤ w.val ∧ w.val ≤ 510)
  · rw [dif_pos hi]
    refine Cert.LibScatterSet.scatter_set_of_hit dR x idx upd (fun j j' i hj hj' => ?_) _ _
      (landR idx hidx _ _ rfl (by show h.val = h.val - 1 + 1; omega) (by show w.val = w.val - 1 + 1; omega))
    obtain ⟨a0, a1, a2⟩ := landR_inv idx hidx j i hj
    obtain ⟨b0, b1, b2⟩ := landR_inv idx hidx j' i hj'
    funext a
    match a with
    | ⟨0, _⟩ => exact Fin.ext (by show (j 0).val = (j' 0).val; omega)
    | ⟨1, _⟩ => exact Fin.ext (by show (j 1).val = (j' 1).val; omega)
    | ⟨2, _⟩ => exact Fin.ext (by show (j 2).val = (j' 2).val; omega)
  · rw [dif_neg hi]
    refine Cert.LibScatterSet.scatter_set_of_miss dR x idx upd _ (fun j hj => hi ?_)
    obtain ⟨_, a1, a2⟩ := landR_inv idx hidx j _ hj
    have a1' : h.val = (j 1).val + 1 := a1
    have a2' : w.val = (j 2).val + 1 := a2
    have l1 : (j 1).val < 510 := (j 1).isLt
    have l2 : (j 2).val < 510 := (j 2).isLt
    omega

end Weights

open Weights

/-! ## The two weight maps -/

/-- The kernel program's weight map at pixel (h, w). -/
theorem wmapK_apply (t : IVec ST 32) (h w : Fin 512) :
    Cert.KernelIdeal.HostVal.wmapK (F := Ideal) t (ix2 h w) = wgt t h w := by
  unfold Cert.KernelIdeal.HostVal.wmapK wgt
  refine (addf_apply _ _ _).trans ?_
  refine congrArg₂ (· + ·) rfl ?_
  refine (mulf_apply _ _ _).trans ?_
  refine congrArg₂ (· * ·) rfl ?_
  refine (scatterK_apply _ _ (concatenate_pair_const _ _ 1#32 (fun _ => rfl) (fun _ => rfl) _) _ h w).trans ?_
  by_cases hi : (1 ≤ h.val ∧ h.val ≤ 510) ∧ (1 ≤ w.val ∧ w.val ≤ 510)
  · rw [dif_pos hi, dif_pos hi]
    show FloatOps.uitofp (F := Ideal) .f32 (Cert.KernelIdeal.HostVal.bmapK t _) = _
    rw [bmapK_eq]
  · rw [dif_neg hi, dif_neg hi]
    rfl

/-- The reference's weight array at pixel (h, w) of image b. -/
theorem wmapR_apply (t : IVec ST 32) (b : Fin 8) (h w : Fin 512) :
    Cert.ReferenceIdeal.ReadP.val_main_v38 (F := Ideal) t (ix3 b h w) = wgt t h w := by
  unfold Cert.ReferenceIdeal.ReadP.val_main_v38 Cert.ReferenceIdeal.ReadP.val_main_v36
    Cert.ReferenceIdeal.ReadP.val_main_v34 Cert.ReferenceIdeal.ReadP.val_main_v33 wgt
  refine (addf_apply _ _ _).trans ?_
  refine congrArg₂ (· + ·) rfl ?_
  refine (mulf_apply _ _ _).trans ?_
  refine congrArg₂ (· * ·) rfl ?_
  refine (scatterR_apply _ _ (concatenate_pair_const _ _ 1#32 (fun _ => rfl) (fun _ => rfl) _) _ b h w).trans ?_
  by_cases hi : (1 ≤ h.val ∧ h.val ≤ 510) ∧ (1 ≤ w.val ∧ w.val ≤ 510)
  · rw [dif_pos hi, dif_pos hi]
    refine (Cert.ReferenceIdeal.ReadP.val_main_v30_apply t _).trans ?_
    refine (Cert.ReferenceIdeal.ReadP.val_main_v29_apply t _).trans ?_
    rw [bmapR_eq]
    refine congrArg (fun k => FloatOps.uitofp (F := Ideal) .f32 (bmap t k)) ?_
    funext a
    match a with
    | ⟨0, _⟩ => rfl
    | ⟨1, _⟩ => rfl
  · rw [dif_neg hi, dif_neg hi]
    rfl

end Cert.BCE

end
-- ==== Proof.KernelArray.lean ====
/-
  The kernel program's arrays around its region: the weight map the host operations before the region leave, and the
  eight per-image sums the region's grid points write, one each.
-/
import proofs.«414120_j16509854286366_3_alg».proof.Proof.Spec
import proofs.«414120_j16509854286366_3_alg».proof.Proof.KernelHost
import proofs.«414120_j16509854286366_3_alg».proof.Proof.KernelPixel
import proofs.«414120_j16509854286366_3_alg».proof.Proof.Weights
import proofs.«414120_j16509854286366_3_alg».proof.Proof.Gen.KernelIdeal.Frame
import Idealize.ShloMosaic.Lib.Pipeline.Value

noncomputable section

namespace Cert.BCE

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-! ## The weight map

The 36 host operations before the region, read in stretches, each leaving the few arrays the next one reads: the spread
of the labels over three consecutive rows (largest minus smallest); the boundary bits (a positive spread in one of three
consecutive columns, in some image); the bits as floats set into the interior of a zero image; and `1 + 2·` that. -/

/-- Transport of contents along an equation between a type and itself changes nothing. -/
theorem arr_cast_id {α : Type} (h : α = α) (a : α) : cast h a = a := rfl

/-- Contents written to a buffer at its value's type and read back are the contents. -/
theorem arr_ofBuf_toBuf {T : BufTy} (x : StableHlo.TRef sig T) (v : T.Contents (Elt Ideal)) : x.ofBuf (x.toBuf v) = v := by
  obtain ⟨r, h, _, _⟩ := x
  subst h
  rfl

/-- Largest minus smallest label over rows `i, i+1, i+2`, for every image, interior row and column. -/
def arr_spread (t : IVec S8x512x512 32) : IVec S8x510x512 32 :=
  subi
    (maxsi (maxsi (extractStridedSlice S8x510x512 ![0, 0, 0] t slices_S8x512x512_S8x510x512_0_0_0)
        (extractStridedSlice S8x510x512 ![0, 1, 0] t slices_S8x512x512_S8x510x512_0_1_0))
      (extractStridedSlice S8x510x512 ![0, 2, 0] t slices_S8x512x512_S8x510x512_0_2_0))
    (minsi (minsi (extractStridedSlice S8x510x512 ![0, 0, 0] t slices_S8x512x512_S8x510x512_0_0_0)
        (extractStridedSlice S8x510x512 ![0, 1, 0] t slices_S8x512x512_S8x510x512_0_1_0))
      (extractStridedSlice S8x510x512 ![0, 2, 0] t slices_S8x512x512_S8x510x512_0_2_0))

/-- The boundary bits from the spreads: positive in one of columns `j, j+1, j+2`, in some image. -/
def arr_edge (d : IVec S8x510x512 32) : IVec S510x510 1 :=
  Host.reduce IntOp.ori
    (ori (ori (extractStridedSlice S8x510x510 ![0, 0, 0]
          (cmpi .sgt d (broadcastInDim S8x510x512 ![] bcast_S_S8x510x512 (constantI S_ 32 0#32))) slices_S8x510x512_S8x510x510_0_0_0)
        (extractStridedSlice S8x510x510 ![0, 0, 1]
          (cmpi .sgt d (broadcastInDim S8x510x512 ![] bcast_S_S8x510x512 (constantI S_ 32 0#32))) slices_S8x510x512_S8x510x510_0_0_1))
      (extractStridedSlice S8x510x510 ![0, 0, 2]
        (cmpi .sgt d (broadcastInDim S8x510x512 ![] bcast_S_S8x510x512 (constantI S_ 32 0#32))) slices_S8x510x512_S8x510x510_0_0_2))
    (constantI S_ 1 0#1) reducesTo_S8x510x510_S510x510_d0 h_S_

/-- The updates `u` set into the image `z` at the offset whose two coordinates are `a` and `b`. -/
def arr_set (z : FVec Ideal S512x512 .f32) (a b : IVec S1 32) (u : FVec Ideal S510x510 .f32) : FVec Ideal S512x512 .f32 :=
  Host.scatter scatter_S512x512_S2_S510x510_01_n_01_0 (fun _ b => b) z
    (concatenate S2 0 [⟨S1, a⟩, ⟨S1, b⟩] concatenates_S1_S1_S2_d0) u

/-- The bits as floats, set into a zero image at offset (1, 1). -/
def arr_inset (β : IVec S510x510 1) : FVec Ideal S512x512 .f32 :=
  arr_set (broadcastInDim S512x512 ![] bcast_S_S512x512 (constant (F := Ideal) S_ .f32 0x00000000#32))
    (broadcastInDim S1 ![] bcast_S_S1 (constantI S_ 32 1#32)) (broadcastInDim S1 ![] bcast_S_S1 (constantI S_ 32 1#32))
    (uitofp .f32 β)

/-- `1 + 2·z`, entry by entry. -/
def arr_weigh (z : FVec Ideal S512x512 .f32) : FVec Ideal S512x512 .f32 :=
  addf (broadcastInDim S512x512 ![] bcast_S_S512x512 (constant (F := Ideal) S_ .f32 0x3F800000#32))
    (mulf (broadcastInDim S512x512 ![] bcast_S_S512x512 (constant (F := Ideal) S_ .f32 0x40000000#32)) z)

/-- The weight map is the stretches' functions composed. -/
theorem arr_wmapK_stretches (t : IVec S8x512x512 32) :
    Cert.KernelIdeal.HostVal.wmapK (F := Ideal) t = arr_weigh (arr_inset (arr_edge (arr_spread t))) := rfl

/-- The host operations before the region, cut where few arrays are all the rest reads: the 11 that end in the spreads, -/
abbrev arr_opsSpread : List (HloOp τ sig (Elt Ideal)) := (hostOps0 (F := Ideal)).take 11
/-- the 10 that end in the boundary bits, -/
abbrev arr_opsEdge : List (HloOp τ sig (Elt Ideal)) := ((hostOps0 (F := Ideal)).drop 11).take 10
/-- the 7 that make the zero image, the bits as floats and the offset's coordinates, -/
abbrev arr_opsParts : List (HloOp τ sig (Elt Ideal)) := ((hostOps0 (F := Ideal)).drop 21).take 7
/-- the 2 that set the bits into the zero image, -/
abbrev arr_opsSet : List (HloOp τ sig (Elt Ideal)) := ((hostOps0 (F := Ideal)).drop 28).take 2
/-- and the 6 that double and add one. -/
abbrev arr_opsWeigh : List (HloOp τ sig (Elt Ideal)) := (hostOps0 (F := Ideal)).drop 30

theorem arr_hostOps0_stretches :
    (hostOps0 (F := Ideal)) = arr_opsSpread ++ (arr_opsEdge ++ ((arr_opsParts ++ arr_opsSet) ++ arr_opsWeigh)) := rfl

/-- From any contents, the first stretch leaves the spreads of what the labels' buffer held. -/
theorem arr_after_spread (W : Valuation τ sig (Elt Ideal)) :
    (StableHlo.after arr_opsSpread W (Proc.devRef .tc main_call0_v10) : IVec S8x510x512 32)
      = arr_spread (W (Proc.devRef .tc main_arg1)) := by
  simp only [arr_opsSpread, hostOps0, List.take_succ_cons, List.take_zero]
  after_results_simp
  simp only [StableHlo.TRef.ofBuf, StableHlo.TRef.toBuf, cast_cast, cast_eq]
  unfold arr_spread
  with_reducible rfl

/-- The second leaves the boundary bits of what the spreads' buffer held. -/
theorem arr_after_edge (W : Valuation τ sig (Elt Ideal)) :
    (StableHlo.after arr_opsEdge W (Proc.devRef .tc main_call0_v18) : IVec S510x510 1)
      = arr_edge (W (Proc.devRef .tc main_call0_v10)) := by
  simp only [arr_opsEdge, hostOps0, List.drop_succ_cons, List.drop_zero, List.take_succ_cons, List.take_zero]
  after_results_simp
  simp only [StableHlo.TRef.ofBuf, StableHlo.TRef.toBuf, cast_cast, cast_eq]
  unfold arr_edge
  with_reducible rfl

/-- The third leaves the parts the setting reads: the zero image, -/
theorem arr_after_parts_zero (W : Valuation τ sig (Elt Ideal)) :
    (StableHlo.after arr_opsParts W (Proc.devRef .tc main_call0_v19) : FVec Ideal S512x512 .f32)
      = broadcastInDim S512x512 ![] bcast_S_S512x512 (constant (F := Ideal) S_ .f32 0x00000000#32) := by
  simp only [arr_opsParts, hostOps0, List.drop_succ_cons, List.drop_zero, List.take_succ_cons, List.take_zero]
  after_results_simp
  simp only [StableHlo.TRef.ofBuf, StableHlo.TRef.toBuf, cast_cast, cast_eq]

/-- the bits as floats, -/
theorem arr_after_parts_bits (W : Valuation τ sig (Elt Ideal)) :
    (StableHlo.after arr_opsParts W (Proc.devRef .tc main_call0_v20) : FVec Ideal S510x510 .f32)
      = uitofp (F := Ideal) .f32 (W (Proc.devRef .tc main_call0_v18) : IVec S510x510 1) := by
  simp only [arr_opsParts, hostOps0, List.drop_succ_cons, List.drop_zero, List.take_succ_cons, List.take_zero]
  after_results_simp
  simp only [StableHlo.TRef.ofBuf, StableHlo.TRef.toBuf, cast_cast, cast_eq]

/-- and the offset's two coordinates, each 1. -/
theorem arr_after_parts_row (W : Valuation τ sig (Elt Ideal)) :
    (StableHlo.after arr_opsParts W (Proc.devRef .tc main_call0_v21) : IVec S1 32)
      = broadcastInDim S1 ![] bcast_S_S1 (constantI S_ 32 1#32) := by
  simp only [arr_opsParts, hostOps0, List.drop_succ_cons, List.drop_zero, List.take_succ_cons, List.take_zero]
  after_results_simp
  simp only [StableHlo.TRef.ofBuf, StableHlo.TRef.toBuf, cast_cast, cast_eq]

theorem arr_after_parts_col (W : Valuation τ sig (Elt Ideal)) :
    (StableHlo.after arr_opsParts W (Proc.devRef .tc main_call0_v22) : IVec S1 32)
      = broadcastInDim S1 ![] bcast_S_S1 (constantI S_ 32 1#32) := by
  simp only [arr_opsParts, hostOps0, List.drop_succ_cons, List.drop_zero, List.take_succ_cons, List.take_zero]
  after_results_simp
  simp only [StableHlo.TRef.ofBuf, StableHlo.TRef.toBuf, cast_cast, cast_eq]

/-- The fourth sets what the updates' buffer holds into what the image's buffer holds, at the offset the two coordinates'
    buffers hold. -/
theorem arr_after_set (W : Valuation τ sig (Elt Ideal)) :
    (StableHlo.after arr_opsSet W (Proc.devRef .tc main_call0_v24) : FVec Ideal S512x512 .f32)
      = arr_set (W (Proc.devRef .tc main_call0_v19)) (W (Proc.devRef .tc main_call0_v21)) (W (Proc.devRef .tc main_call0_v22))
          (W (Proc.devRef .tc main_call0_v20)) := by
  simp only [arr_opsSet, hostOps0, List.drop_succ_cons, List.drop_zero, List.take_succ_cons, List.take_zero]
  after_results
  rw [arr_ofBuf_toBuf]
  delta StableHlo.TRef.ofBuf StableHlo.TRef.toBuf
  refine (arr_cast_id _ _).trans ?_
  erw [arr_cast_id _ (W (Proc.devRef .tc main_call0_v19)), arr_cast_id _ (W (Proc.devRef .tc main_call0_v21)),
    arr_cast_id _ (W (Proc.devRef .tc main_call0_v22)), arr_cast_id _ (W (Proc.devRef .tc main_call0_v20))]
  rfl

/-- So the third and fourth together leave the bits, as floats, in the interior of a zero image. -/
theorem arr_after_inset (W : Valuation τ sig (Elt Ideal)) :
    (StableHlo.after (arr_opsParts ++ arr_opsSet) W (Proc.devRef .tc main_call0_v24) : FVec Ideal S512x512 .f32)
      = arr_inset (W (Proc.devRef .tc main_call0_v18)) := by
  rw [StableHlo.after_append]
  refine (arr_after_set _).trans ?_
  rw [arr_after_parts_zero, arr_after_parts_row, arr_after_parts_col, arr_after_parts_bits]
  rfl

/-- The last leaves one plus twice what the image's buffer held. -/
theorem arr_after_weigh (W : Valuation τ sig (Elt Ideal)) :
    (StableHlo.after arr_opsWeigh W (Proc.devRef .tc main_call0_v28) : FVec Ideal S512x512 .f32)
      = arr_weigh (W (Proc.devRef .tc main_call0_v24)) := by
  simp only [arr_opsWeigh, hostOps0, List.drop_succ_cons, List.drop_zero]
  after_results_simp
  simp only [StableHlo.TRef.ofBuf, StableHlo.TRef.toBuf, cast_cast, cast_eq]
  unfold arr_weigh
  with_reducible rfl

/-- The third window's array, as the region finds it, is the weight map of the labels. -/
theorem V_wmap (c : Dev nD) :
    (V m c main_call0_v28 : S512x512.Idx → EReal)
      = Cert.KernelIdeal.HostVal.wmapK (F := Ideal) (m ((c.tc : Thread nD τ).loc main_arg1)) := by
  dsimp only [V, V0]
  simp only [List.flatten_cons, List.flatten_nil, List.append_nil]
  rw [arr_hostOps0_stretches, StableHlo.after_append, StableHlo.after_append, StableHlo.after_append, arr_wmapK_stretches]
  refine (arr_after_weigh _).trans ?_
  refine (congrArg arr_weigh (arr_after_inset _)).trans ?_
  refine (congrArg (fun z => arr_weigh (arr_inset z)) (arr_after_edge _)).trans ?_
  exact congrArg (fun z => arr_weigh (arr_inset (arr_edge z))) (arr_after_spread _)

/-! ## The per-image sums -/

/-- Grid point `t` works on image `t`. -/
abbrev arr_img (t : Fin cfg0.N) : Fin 8 := Fin.cast N_0 t

/-- The printed index maps over the grid: point `t`'s blocks of the logits, of the labels and of the output are image
    `t`'s, at block index zero on every other axis; the weight map's block is the whole map. -/
theorem arr_index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Point `t`'s block of the logits is image `t` of the logits. -/
theorem arr_logits_block (c : Dev nD) (t : Fin cfg0.N) (ch : Fin 21) (h w : Fin 512) :
    (iblk m c 0 t : Vec Ideal S1x21x512x512 .f32) (ix4 (0 : Fin 1) ch h w)
      = (m ((c.tc : Thread nD τ).loc main_arg0) : S8x21x512x512.Idx → EReal) (ix4 (arr_img t) ch h w) := by
  obtain ⟨e0, e1, e2, e3, -⟩ := arr_index_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 21 + 1 * ch.val = ch.val; omega
  | ⟨2, _⟩ => show win0_0.index t (2 : Fin 4) * 512 + 1 * h.val = h.val; omega
  | ⟨3, _⟩ => show win0_0.index t (3 : Fin 4) * 512 + 1 * w.val = w.val; omega

/-- Point `t`'s block of the labels is image `t` of the labels. -/
theorem arr_labels_block (c : Dev nD) (t : Fin cfg0.N) (h w : Fin 512) :
    (iblk m c 1 t : Vec Ideal S1x512x512 .i32) (ix3 (0 : Fin 1) h w)
      = (m ((c.tc : Thread nD τ).loc main_arg1) : IVec S8x512x512 32) (ix3 (arr_img t) h w) := by
  obtain ⟨-, -, -, -, e0, e1, e2, -⟩ := arr_index_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 512 + 1 * h.val = h.val; omega
  | ⟨2, _⟩ => show win0_1.index t (2 : Fin 3) * 512 + 1 * w.val = w.val; omega

/-- Every point's block of the weight map is the whole map: the weights of the labels. -/
theorem arr_weights_block (c : Dev nD) (t : Fin cfg0.N) (h w : Fin 512) :
    (iblk m c 2 t : Vec Ideal S512x512 .f32) (ix2 h w) = wgt (m ((c.tc : Thread nD τ).loc main_arg1)) h w := by
  obtain ⟨-, -, -, -, -, -, -, e0, e1, -⟩ := arr_index_facts t
  unfold iblk
  rw [View.read_apply]
  show (V m c main_call0_v28 : S512x512.Idx → EReal) _ = _
  rw [V_wmap]
  refine Eq.trans (congrArg _ (funext fun a => Fin.ext ?_)) (wmapK_apply _ h w)
  match a with
  | ⟨0, _⟩ => show win0_2.index t (0 : Fin 2) * 512 + 1 * h.val = h.val; omega
  | ⟨1, _⟩ => show win0_2.index t (1 : Fin 2) * 512 + 1 * w.val = w.val; omega

/-- The eight sums as one array: image `b`'s at element `(b, 0, 0)`. -/
def arr_sums (x : SX.Idx → EReal) (t : IVec ST 32) : S8x1x1.Idx → EReal :=
  fun i => imageSum x t ⟨(i 0).val, (i 0).isLt⟩

/-- What point `t` writes back is its block of the sums: image `t`'s. -/
theorem arr_flushed (c : Dev nD) (hl : Labels (m ((c.tc : Thread nD τ).loc main_arg1))) (t : Fin cfg0.N) :
    (dats m 0 c).flushed 3 t = ((cfg0.win 3).blk t).view.read (Elt Ideal)
      (arr_sums (m ((c.tc : Thread nD τ).loc main_arg0)) (m ((c.tc : Thread nD τ).loc main_arg1))) := by
  show (cfg0.win 3).cut (grid0.coords t) ((dats m 0 c).after 3 t) = _
  rw [after0_3]
  funext j
  rw [View.read_apply]
  show out0_3 (iblk m c 0 t) (iblk m c 1 t) (iblk m c 2 t) ((cfg0.win 3).xinj (grid0.coords t) j)
    = arr_sums (m ((c.tc : Thread nD τ).loc main_arg0)) (m ((c.tc : Thread nD τ).loc main_arg1)) (((cfg0.win 3).blk t).view.emb j)
  refine (block_sum _ _ _ ?_ _).trans ?_
  · intro h w
    rw [arr_labels_block]
    exact hl _
  · have hb : (⟨((((cfg0.win 3).blk t).view.emb j) 0).val, ((((cfg0.win 3).blk t).view.emb j) 0).isLt⟩ : Fin 8) = arr_img t := by
      obtain ⟨-, -, -, -, -, -, -, -, -, e0, -⟩ := arr_index_facts t
      have hj : (j 0).val < 1 := (j 0).isLt
      apply Fin.ext
      show win0_3.index t (0 : Fin 3) * 1 + 1 * (j 0).val = t.val
      omega
    unfold arr_sums imageSum
    rw [hb]
    refine Finset.sum_congr rfl fun h _ => Finset.sum_congr rfl fun w _ => ?_
    rw [arr_labels_block, arr_weights_block]
    exact congrArg (fun f => pixel f _ _) (funext fun ch => arr_logits_block m c t ch h w)

/-- An index of the output array is in point `t`'s block iff each coordinate is in the block's range on its axis. -/
theorem arr_mem_blk (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_call0_v29).slice (win0_3.rect t)).set ↔ _
  rw [View.set_slice_whole, Rect.mem_set_unit]
  exact Iff.rfl

/-- After the region the output array holds the eight sums: element `(b, 0, 0)` is in the block of point `b`. -/
theorem arr_final (c : Dev nD) (hl : Labels (m ((c.tc : Thread nD τ).loc main_arg1))) :
    (dats m 0 c).arrAt 3 cfg0.N = arr_sums (m ((c.tc : Thread nD τ).loc main_arg0)) (m ((c.tc : Thread nD τ).loc main_arg1)) :=
  (dats m 0 c).arrAt_eq_of_cover 3 _ (fun t _ => arr_flushed m c hl t) fun i => by
    have h0 : (i 0).val < 8 := (i 0).isLt
    have h1 : (i 1).val < 1 := (i 1).isLt
    have h2 : (i 2).val < 1 := (i 2).isLt
    refine ⟨Fin.cast N_0.symm ⟨(i 0).val, h0⟩, flush0_3 _, ?_⟩
    obtain ⟨-, -, -, -, -, -, -, -, -, e0, e1, e2⟩ := arr_index_facts (Fin.cast N_0.symm ⟨(i 0).val, h0⟩)
    have e0' : win0_3.index (Fin.cast N_0.symm ⟨(i 0).val, h0⟩) (0 : Fin 3) = (i 0).val := e0
    rw [arr_mem_blk]
    intro a
    match a with
    | ⟨0, _⟩ => show win0_3.index (Fin.cast N_0.symm ⟨(i 0).val, h0⟩) (0 : Fin 3) * 1 ≤ (i 0).val ∧ (i 0).val < win0_3.index (Fin.cast N_0.symm ⟨(i 0).val, h0⟩) (0 : Fin 3) * 1 + 1; omega
    | ⟨1, _⟩ => show win0_3.index (Fin.cast N_0.symm ⟨(i 0).val, h0⟩) (1 : Fin 3) * 1 ≤ (i 1).val ∧ (i 1).val < win0_3.index (Fin.cast N_0.symm ⟨(i 0).val, h0⟩) (1 : Fin 3) * 1 + 1; omega
    | ⟨2, _⟩ => show win0_3.index (Fin.cast N_0.symm ⟨(i 0).val, h0⟩) (2 : Fin 3) * 1 ≤ (i 2).val ∧ (i 2).val < win0_3.index (Fin.cast N_0.symm ⟨(i 0).val, h0⟩) (2 : Fin 3) * 1 + 1; omega

/-- After the region the output array holds image `b`'s sum at its element `b`. -/
theorem partials (c : Dev nD) (hl : Labels (m ((c.tc : Thread nD τ).loc main_arg1))) (b : Fin 8) :
    ((dats m 0 c).arrAt 3 cfg0.N : S8x1x1.Idx → EReal) (ix3 b (0 : Fin 1) (0 : Fin 1))
      = imageSum (m ((c.tc : Thread nD τ).loc main_arg0)) (m ((c.tc : Thread nD τ).loc main_arg1)) b := by
  rw [arr_final m c hl]
  rfl

end Cert.BCE

end
-- ==== Proof.KernelRun.lean ====
/-
  The kernel program's run: it ends with its result at `total` of the argument arrays, and these unchanged.
-/
import proofs.«414120_j16509854286366_3_alg».proof.Proof.Spec
import proofs.«414120_j16509854286366_3_alg».proof.Proof.KernelHost
import proofs.«414120_j16509854286366_3_alg».proof.Proof.KernelArray
import proofs.«414120_j16509854286366_3_alg».proof.Proof.Gen.KernelIdeal.Frame
import Idealize.ShloMosaic.Lib.Pipeline.Value
import Idealize.ShloMosaic.PureOps.Ideal.Laws

noncomputable section

namespace Cert.BCE

open Idealize.ShloMosaic Idealize.ShloMosaic.ValueIdx Idealize.ShloMosaic.TcCoe Idealize.SL.Sem Cert.KernelIdeal Cert.KernelIdeal.Gen

/-! ## The eight per-image sums as one sum over the image number -/

/-- An index of the array of the eight per-image sums (shape [8, 1, 1]) is its image number. -/
def imageIdx : Fin 8 ≃ S8x1x1.Idx where
  toFun b := ix3 b (0 : Fin 1) (0 : Fin 1)
  invFun j := j 0
  left_inv _ := rfl
  right_inv j := by
    obtain ⟨a, b, c, rfl⟩ : ∃ (a : Fin 8) (b : Fin 1) (c : Fin 1), j = ix3 a b c := ⟨j 0, j 1, j 2, eq_ix3 j⟩
    show ix3 a (0 : Fin 1) (0 : Fin 1) = ix3 a b c
    rw [Subsingleton.elim b 0, Subsingleton.elim c 0]

/-- The sum of all entries of the [8, 1, 1] array is the sum over the eight images. -/
theorem sum_images (p : S8x1x1.Idx → EReal) :
    ∑ j : S8x1x1.Idx, p j = ∑ b : Fin 8, p (ix3 b (0 : Fin 1) (0 : Fin 1)) :=
  (Equiv.sum_comp imageIdx p).symm

/-! ## The divisor's words -/

/-- The word of `8.0` denotes the real 8. -/
theorem ofBits_eight : Ideal.ofBits .f32 0x41000000#32 = ((8 : ℝ) : EReal) := by
  simp [Ideal.ofBits, Ideal.ieee, -EReal.coe_mul]; norm_num

/-- The word of `512.0` denotes the real 512. -/
theorem ofBits_512 : Ideal.ofBits .f32 0x44000000#32 = ((512 : ℝ) : EReal) := by
  simp [Ideal.ofBits, Ideal.ieee, -EReal.coe_mul]; norm_num

/-- The divisor `(8 · 512) · 512` is the number of pixels, 2²¹. -/
theorem divisor_eq : Ideal.ofBits .f32 0x41000000#32 * Ideal.ofBits .f32 0x44000000#32 * Ideal.ofBits .f32 0x44000000#32
    = ((2097152 : ℝ) : EReal) := by
  rw [ofBits_eight, ofBits_512, ← EReal.coe_mul, ← EReal.coe_mul]
  norm_num

/-- The mean of eight per-image sums. -/
theorem tailK_apply (p : FVec Ideal S8x1x1 .f32) (i : S_.Idx) :
    Cert.KernelIdeal.HostVal.tailK (F := Ideal) p i
      = Ideal.div (∑ b : Fin 8, p (ix3 b (0 : Fin 1) (0 : Fin 1))) ((2097152 : ℝ) : EReal) := by
  unfold Cert.KernelIdeal.HostVal.tailK
  simp only [Host.reduceAdd, Ideal.hostReduceAdd_def]
  show Ideal.div (Ideal.hostReduceAdd reducesTo_S8x1x1_S_d0_1_2 p (Ideal.ofBits .f32 0x00000000#32) i)
      (Ideal.ofBits .f32 0x41000000#32 * Ideal.ofBits .f32 0x44000000#32 * Ideal.ofBits .f32 0x44000000#32) = _
  rw [Ideal.hostReduceAdd_total reducesTo_S8x1x1_S_d0_1_2 (fun b => b.elim0) p _ i, Ideal.ofBits_zero_f32, zero_add,
    sum_images, divisor_eq]

/-! ## The host operations after the region -/

/-- The buffer of the program's result after the eight host operations that follow the region, from any contents `W`
    of the buffers before them: the mean `tailK` of the array the region wrote. -/
theorem tail_of (W : Valuation τ sig (Elt Ideal)) :
    StableHlo.after hostOps1 W (Proc.devRef .tc main_v0)
      = Cert.KernelIdeal.HostVal.tailK (F := Ideal) (W (Proc.devRef .tc main_call0_v29)) := by
  after_results
  rfl

/-- The program's result buffer after the whole run holds `total` of the two argument arrays. -/
theorem tail_value (m : (ℓ : Loc nD τ sig) → Buf (Elt Ideal) ℓ) (c : Dev nD) (hl : Labels (m ((c.tc : Thread nD τ).loc main_arg1))) :
    Pipeline.afterTail₀ cfgs (dats m) 0 (V0 m) [hostOps1] c main_v0
      = (fun _ => total (m ((c.tc : Thread nD τ).loc main_arg0)) (m ((c.tc : Thread nD τ).loc main_arg1))) := by
  unfold Pipeline.afterTail₀
  show StableHlo.after hostOps1 _ (Proc.devRef .tc main_v0) = _
  refine (tail_of _).trans ?_
  refine (congrArg (Cert.KernelIdeal.HostVal.tailK (F := Ideal)) (Pipeline.withArrays_arr spec0 launch0.win.arr_inj c _ _ 3)).trans ?_
  funext i
  refine (tailK_apply _ i).trans ?_
  unfold total
  exact congrArg (fun s => Ideal.div s ((2097152 : ℝ) : EReal)) (Finset.sum_congr rfl fun b _ => partials m c hl b)

/-- The result buffer is no array of the pipeline and is not scoped: the region leaves it to the host operations. -/
theorem result_rest : main_v0 ∈ Pipeline.restRefs sig (cfgs 0).spec :=
  Pipeline.mem_restRefs_of main_v0 (by decide) (by decide)

/-- Every weakly fair execution of the kernel program ends with the result `total` and the arguments unchanged. -/
theorem kernel_run (m : (ℓ : Loc nD τ sig) → Buf (Elt Ideal) ℓ) (ρ : Dev nD → PrngReg)
    (hl : ∀ c : Dev nD, Labels (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v0)
          = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 result_rest).trans (tail_value m c (hl c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.BCE

end
-- ==== Proof.RefStages.lean ====
/-
  The reference program's result buffer after its 93 host operations, read stretch by stretch: it holds the last
  stage `val_main_v41` of the two argument arrays.

  The operations are cut into seven consecutive stretches: the log-softmax of the logits (1 to 15), the ignore mask
  and the masked labels (16 to 23), the class logit picked by the label (24 to 45), its negation under the mask
  (46 to 51), the boundary bits (52 to 72), the weights (73 to 88), and the weighted mean (89 to 93). For each
  stretch, from ANY contents of the buffers, the buffers it hands on hold the corresponding stage of what it was
  handed, and the buffers a later stretch still reads are left as they were. Chaining the seven facts gives the result.
-/
import proofs.«414120_j16509854286366_3_alg».proof.Proof.RefReadP

set_option Elab.async false

noncomputable section

namespace Cert.BCE

open Cert.ReferenceIdeal Cert.ReferenceIdeal.Gen Idealize.ShloMosaic Idealize.ShloMosaic.TcCoe Idealize.SL.Sem Idealize.ShloMosaic.StableHlo

variable {F : FTy → Type} [FloatOps F]

/-! ## Transports

An operation of an inlined function body states its function at the value's type and moves contents to and from the
buffer's own type along an equation between the two. Both types are the same here, so every such move is the identity:
a move there and back cancels for any reference, and a single move is the identity once the reference is a literal. -/

/-- A transport along an equation of a type with itself is the identity. -/
theorem st_cast_id {α : Sort _} (h : α = α) (a : α) : cast h a = a := rfl

/-- Moving contents to a typed reference's buffer and back is the identity. -/
theorem st_ofBuf_toBuf {Val : EltTy → Type} {T : BufTy} (x : TRef sig T) (v : T.Contents Val) :
    x.ofBuf (x.toBuf v) = v := by
  obtain ⟨r, h, h2, h3⟩ := x
  subst h
  rfl

/-! ## The seven stretches of the operation list -/

/-- Operations 1 to 15: the log-softmax of the logits, into `main_v0`. -/
abbrev st_ops1 : List (HloOp τ sig (Elt F)) :=
  [ TRef.nullary (TRef.of (T := ⟨S_, .f32⟩) main_call0_cst) (constant S_ .f32 0xFF800000#32),
    TRef.binary (TRef.of (T := ⟨S8x21x512x512, .f32⟩) main_arg0) (TRef.of (T := ⟨S_, .f32⟩) main_call0_cst) (TRef.of (T := ⟨S8x512x512, .f32⟩) main_call0_v0) (fun x v => Host.reduce FloatOps.maximumf x v reducesTo_S8x21x512x512_S8x512x512_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8x512x512, .f32⟩) main_call0_v1) (broadcastInDim S8x512x512 ![] bcast_S_S8x512x512),
    TRef.binary (TRef.of (T := ⟨S8x512x512, .f32⟩) main_call0_v1) (TRef.of (T := ⟨S8x512x512, .f32⟩) main_call0_v0) (TRef.of (T := ⟨S8x512x512, .f32⟩) main_call0_v2) maximumf,
    TRef.unary (TRef.of (T := ⟨S8x512x512, .f32⟩) main_call0_v2) (TRef.of (T := ⟨S8x1x512x512, .f32⟩) main_call0_v3) (broadcastInDim S8x1x512x512 ![0, 2, 3] bcast_S8x512x512_S8x1x512x512_0_2_3),
    TRef.unary (TRef.of (T := ⟨S8x1x512x512, .f32⟩) main_call0_v3) (TRef.of (T := ⟨S8x21x512x512, .f32⟩) main_call0_v4) (broadcastInDim S8x21x512x512 ![0, 1, 2, 3] bcast_S8x1x512x512_S8x21x512x512_0_1_2_3),
    TRef.binary (TRef.of (T := ⟨S8x21x512x512, .f32⟩) main_arg0) (TRef.of (T := ⟨S8x21x512x512, .f32⟩) main_call0_v4) (TRef.of (T := ⟨S8x21x512x512, .f32⟩) main_call0_v5) subf,
    TRef.unary (TRef.of (T := ⟨S8x21x512x512, .f32⟩) main_call0_v5) (TRef.of (T := ⟨S8x21x512x512, .f32⟩) main_call0_v6) Host.exp,
    TRef.nullary (TRef.of (T := ⟨S_, .f32⟩) main_call0_cst_1) (constant S_ .f32 0x00000000#32),
    TRef.binary (TRef.of (T := ⟨S8x21x512x512, .f32⟩) main_call0_v6) (TRef.of (T := ⟨S_, .f32⟩) main_call0_cst_1) (TRef.of (T := ⟨S8x512x512, .f32⟩) main_call0_v7) (fun x v => Host.reduceAdd x v reducesTo_S8x21x512x512_S8x512x512_d1 h_S_),
    TRef.unary (TRef.of (T := ⟨S8x512x512, .f32⟩) main_call0_v7) (TRef.of (T := ⟨S8x1x512x512, .f32⟩) main_call0_v8) (broadcastInDim S8x1x512x512 ![0, 2, 3] bcast_S8x512x512_S8x1x512x512_0_2_3),
    TRef.unary (TRef.of (T := ⟨S8x1x512x512, .f32⟩) main_call0_v8) (TRef.of (T := ⟨S8x1x512x512, .f32⟩) main_call0_v9) Host.log,
    TRef.unary (TRef.of (T := ⟨S8x1x512x512, .f32⟩) main_call0_v9) (TRef.of (T := ⟨S8x21x512x512, .f32⟩) main_call0_v10) (broadcastInDim S8x21x512x512 ![0, 1, 2, 3] bcast_S8x1x512x512_S8x21x512x512_0_1_2_3),
    TRef.binary (TRef.of (T := ⟨S8x21x512x512, .f32⟩) main_call0_v5) (TRef.of (T := ⟨S8x21x512x512, .f32⟩) main_call0_v10) (TRef.of (T := ⟨S8x21x512x512, .f32⟩) main_v0) subf ]

/-- Operations 16 to 23: the mask `label ≠ 255` into `main_v2`, the labels with 0 at the ignore label into `main_v3`, and those with a unit class axis into `main_v4`. -/
abbrev st_ops2 : List (HloOp τ sig (Elt F)) :=
  [ nullary main_c (constantI S_ 32 255#32),
    unary main_c main_v1 (broadcastInDim S8x512x512 ![] bcast_S_S8x512x512 : (⟨S_, .i32⟩ : BufTy).Contents (Elt F) → (⟨S8x512x512, .i32⟩ : BufTy).Contents (Elt F)),
    binary main_arg1 main_v1 main_v2 (cmpi .ne : (⟨S8x512x512, .i32⟩ : BufTy).Contents (Elt F) → (⟨S8x512x512, .i32⟩ : BufTy).Contents (Elt F) → (⟨S8x512x512, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S8x512x512, .i32⟩) main_call1_v1) (broadcastInDim S8x512x512 ![] bcast_S_S8x512x512),
    TRef.ternary (TRef.of (T := ⟨S8x512x512, .i1⟩) main_v2) (TRef.of (T := ⟨S8x512x512, .i32⟩) main_arg1) (TRef.of (T := ⟨S8x512x512, .i32⟩) main_call1_v1) (TRef.of (T := ⟨S8x512x512, .i32⟩) main_v3) select,
    unary main_v3 main_v4 (broadcastInDim S8x1x512x512 ![0, 2, 3] bcast_S8x512x512_S8x1x512x512_0_2_3 : (⟨S8x512x512, .i32⟩ : BufTy).Contents (Elt F) → (⟨S8x1x512x512, .i32⟩ : BufTy).Contents (Elt F)) ]

/-- Operations 24 to 45: the log-probability of the labelled class, picked along the class axis, into `main_v5`. -/
abbrev st_ops3 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x1x512x512, .i32⟩) main_call2_v0) (broadcastInDim S8x1x512x512 ![] bcast_S_S8x1x512x512),
    TRef.binary (TRef.of (T := ⟨S8x1x512x512, .i32⟩) main_v4) (TRef.of (T := ⟨S8x1x512x512, .i32⟩) main_call2_v0) (TRef.of (T := ⟨S8x1x512x512, .i1⟩) main_call2_v1) (cmpi .slt),
    TRef.nullary (TRef.of (T := ⟨S_, .i32⟩) main_call2_c_0) (constantI S_ 32 21#32),
    TRef.unary (TRef.of (T := ⟨S_, .i32⟩) main_call2_c_0) (TRef.of (T := ⟨S8x1x512x512, .i32⟩) main_call2_v2) (broadcastInDim S8x1x512x512 ![] bcast_S_S8x1x512x512),
    TRef.binary (TRef.of (T := ⟨S8x1x512x512, .i32⟩) main_v4) (TRef.of (T := ⟨S8x1x512x512, .i32⟩) main_call2_v2) (TRef.of (T := ⟨S8x1x512x512, .i32⟩) main_call2_v3) addi,
    TRef.ternary (TRef.of (T := ⟨S8x1x512x512, .i1⟩) main_call2_v1) (TRef.of (T := ⟨S8x1x512x512, .i32⟩) main_call2_v3) (TRef.of (T := ⟨S8x1x512x512, .i32⟩) main_v4) (TRef.of (T := ⟨S8x1x512x512, .i32⟩) main_call2_v4) select,
    TRef.reshape (TRef.of (T := ⟨S8x1x512x512, .i32⟩) main_call2_v4) (TRef.of (T := ⟨S8x1x512x512x1, .i32⟩) main_call2_v5) rfl shapeCasts_S8x1x512x512_S8x1x512x512x1,
    TRef.nullary (TRef.of (T := ⟨S1, .i32⟩) main_call2_c_1) (constantI S1 32 20#32),
    TRef.nullary (TRef.of (T := ⟨S_, .i32⟩) main_call2_c_2) (constantI S_ 32 0#32),
    TRef.unary (TRef.of (T := ⟨S_, .i32⟩) main_call2_c_2) (TRef.of (T := ⟨S8x1x512x512x1, .i32⟩) main_call2_v6) (broadcastInDim S8x1x512x512x1 ![] bcast_S_S8x1x512x512x1),
    TRef.binary (TRef.of (T := ⟨S8x1x512x512x1, .i32⟩) main_call2_v5) (TRef.of (T := ⟨S8x1x512x512x1, .i32⟩) main_call2_v6) (TRef.of (T := ⟨S8x1x512x512x1, .i1⟩) main_call2_v7) (cmpi .sge),
    TRef.unary (TRef.of (T := ⟨S1, .i32⟩) main_call2_c_1) (TRef.of (T := ⟨S1x1x1x1x1, .i32⟩) main_call2_v8) (broadcastInDim S1x1x1x1x1 ![4] bcast_S1_S1x1x1x1x1_4),
    TRef.unary (TRef.of (T := ⟨S1x1x1x1x1, .i32⟩) main_call2_v8) (TRef.of (T := ⟨S8x1x512x512x1, .i32⟩) main_call2_v9) (broadcastInDim S8x1x512x512x1 ![0, 1, 2, 3, 4] bcast_S1x1x1x1x1_S8x1x512x512x1_0_1_2_3_4),
    TRef.binary (TRef.of (T := ⟨S8x1x512x512x1, .i32⟩) main_call2_v5) (TRef.of (T := ⟨S8x1x512x512x1, .i32⟩) main_call2_v9) (TRef.of (T := ⟨S8x1x512x512x1, .i1⟩) main_call2_v10) (cmpi .sle),
    TRef.binary (TRef.of (T := ⟨S8x1x512x512x1, .i1⟩) main_call2_v7) (TRef.of (T := ⟨S8x1x512x512x1, .i1⟩) main_call2_v10) (TRef.of (T := ⟨S8x1x512x512x1, .i1⟩) main_call2_v11) andi,
    TRef.nullary (TRef.of (T := ⟨S_, .i1⟩) main_call2_c_3) (constantI S_ 1 1#1),
    TRef.binary (TRef.of (T := ⟨S8x1x512x512x1, .i1⟩) main_call2_v11) (TRef.of (T := ⟨S_, .i1⟩) main_call2_c_3) (TRef.of (T := ⟨S8x1x512x512, .i1⟩) main_call2_v12) (fun x v => Host.reduce IntOp.andi x v reducesTo_S8x1x512x512x1_S8x1x512x512_d4 h_S_),
    TRef.binary (TRef.of (T := ⟨S8x21x512x512, .f32⟩) main_v0) (TRef.of (T := ⟨S8x1x512x512x1, .i32⟩) main_call2_v5) (TRef.of (T := ⟨S8x1x512x512, .f32⟩) main_call2_v13) (fun x i => Host.gather gather_S8x21x512x512_S8x1x512x512x1_S8x1x512x512_n_1_023_023_1_4_1111 x i),
    TRef.nullary (TRef.of (T := ⟨S_, .f32⟩) main_call2_cst) (constant S_ .f32 0x7FC00000#32),
    TRef.unary (TRef.of (T := ⟨S_, .f32⟩) main_call2_cst) (TRef.of (T := ⟨S8x1x512x512, .f32⟩) main_call2_v14) (broadcastInDim S8x1x512x512 ![] bcast_S_S8x1x512x512),
    TRef.ternary (TRef.of (T := ⟨S8x1x512x512, .i1⟩) main_call2_v12) (TRef.of (T := ⟨S8x1x512x512, .f32⟩) main_call2_v13) (TRef.of (T := ⟨S8x1x512x512, .f32⟩) main_call2_v14) (TRef.of (T := ⟨S8x1x512x512, .f32⟩) main_v5) select ]

/-- Operations 46 to 51: its negation, with 0 at the ignore label, into `main_v8`. -/
abbrev st_ops4 : List (HloOp τ sig (Elt F)) :=
  [ reshape main_v5 main_v6 rfl shapeCasts_S8x1x512x512_S8x512x512,
    unary main_v6 main_v7 (Host.negf : (⟨S8x512x512, .f32⟩ : BufTy).Contents (Elt F) → (⟨S8x512x512, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S8x512x512, .f32⟩) main_call3_v1) (broadcastInDim S8x512x512 ![] bcast_S_S8x512x512),
    TRef.ternary (TRef.of (T := ⟨S8x512x512, .i1⟩) main_v2) (TRef.of (T := ⟨S8x512x512, .f32⟩) main_v7) (TRef.of (T := ⟨S8x512x512, .f32⟩) main_call3_v1) (TRef.of (T := ⟨S8x512x512, .f32⟩) main_v8) select ]

/-- Operations 52 to 72: the boundary bits of the interior pixels, into `main_v27`. -/
abbrev st_ops5 : List (HloOp τ sig (Elt F)) :=
  [ unary main_arg1 main_v9 ((extractStridedSlice S8x510x512 ![0, 0, 0] · slices_S8x512x512_S8x510x512_0_0_0) : (⟨S8x512x512, .i32⟩ : BufTy).Contents (Elt F) → (⟨S8x510x512, .i32⟩ : BufTy).Contents (Elt F)),
    unary main_arg1 main_v10 ((extractStridedSlice S8x510x512 ![0, 1, 0] · slices_S8x512x512_S8x510x512_0_1_0) : (⟨S8x512x512, .i32⟩ : BufTy).Contents (Elt F) → (⟨S8x510x512, .i32⟩ : BufTy).Contents (Elt F)),
    binary main_v9 main_v10 main_v11 (maxsi : (⟨S8x510x512, .i32⟩ : BufTy).Contents (Elt F) → (⟨S8x510x512, .i32⟩ : BufTy).Contents (Elt F) → (⟨S8x510x512, .i32⟩ : BufTy).Contents (Elt F)),
    unary main_arg1 main_v12 ((extractStridedSlice S8x510x512 ![0, 2, 0] · slices_S8x512x512_S8x510x512_0_2_0) : (⟨S8x512x512, .i32⟩ : BufTy).Contents (Elt F) → (⟨S8x510x512, .i32⟩ : BufTy).Contents (Elt F)),
    binary main_v11 main_v12 main_v13 (maxsi : (⟨S8x510x512, .i32⟩ : BufTy).Contents (Elt F) → (⟨S8x510x512, .i32⟩ : BufTy).Contents (Elt F) → (⟨S8x510x512, .i32⟩ : BufTy).Contents (Elt F)),
    unary main_arg1 main_v14 ((extractStridedSlice S8x510x512 ![0, 0, 0] · slices_S8x512x512_S8x510x512_0_0_0) : (⟨S8x512x512, .i32⟩ : BufTy).Contents (Elt F) → (⟨S8x510x512, .i32⟩ : BufTy).Contents (Elt F)),
    unary main_arg1 main_v15 ((extractStridedSlice S8x510x512 ![0, 1, 0] · slices_S8x512x512_S8x510x512_0_1_0) : (⟨S8x512x512, .i32⟩ : BufTy).Contents (Elt F) → (⟨S8x510x512, .i32⟩ : BufTy).Contents (Elt F)),
    binary main_v14 main_v15 main_v16 (minsi : (⟨S8x510x512, .i32⟩ : BufTy).Contents (Elt F) → (⟨S8x510x512, .i32⟩ : BufTy).Contents (Elt F) → (⟨S8x510x512, .i32⟩ : BufTy).Contents (Elt F)),
    unary main_arg1 main_v17 ((extractStridedSlice S8x510x512 ![0, 2, 0] · slices_S8x512x512_S8x510x512_0_2_0) : (⟨S8x512x512, .i32⟩ : BufTy).Contents (Elt F) → (⟨S8x510x512, .i32⟩ : BufTy).Contents (Elt F)),
    binary main_v16 main_v17 main_v18 (minsi : (⟨S8x510x512, .i32⟩ : BufTy).Contents (Elt F) → (⟨S8x510x512, .i32⟩ : BufTy).Contents (Elt F) → (⟨S8x510x512, .i32⟩ : BufTy).Contents (Elt F)),
    binary main_v13 main_v18 main_v19 (subi : (⟨S8x510x512, .i32⟩ : BufTy).Contents (Elt F) → (⟨S8x510x512, .i32⟩ : BufTy).Contents (Elt F) → (⟨S8x510x512, .i32⟩ : BufTy).Contents (Elt F)),
    nullary main_c_1 (constantI S_ 32 0#32),
    unary main_c_1 main_v20 (broadcastInDim S8x510x512 ![] bcast_S_S8x510x512 : (⟨S_, .i32⟩ : BufTy).Contents (Elt F) → (⟨S8x510x512, .i32⟩ : BufTy).Contents (Elt F)),
    binary main_v19 main_v20 main_v21 (cmpi .sgt : (⟨S8x510x512, .i32⟩ : BufTy).Contents (Elt F) → (⟨S8x510x512, .i32⟩ : BufTy).Contents (Elt F) → (⟨S8x510x512, .i1⟩ : BufTy).Contents (Elt F)),
    unary main_v21 main_v22 ((extractStridedSlice S8x510x510 ![0, 0, 0] · slices_S8x510x512_S8x510x510_0_0_0) : (⟨S8x510x512, .i1⟩ : BufTy).Contents (Elt F) → (⟨S8x510x510, .i1⟩ : BufTy).Contents (Elt F)),
    unary main_v21 main_v23 ((extractStridedSlice S8x510x510 ![0, 0, 1] · slices_S8x510x512_S8x510x510_0_0_1) : (⟨S8x510x512, .i1⟩ : BufTy).Contents (Elt F) → (⟨S8x510x510, .i1⟩ : BufTy).Contents (Elt F)),
    binary main_v22 main_v23 main_v24 (ori : (⟨S8x510x510, .i1⟩ : BufTy).Contents (Elt F) → (⟨S8x510x510, .i1⟩ : BufTy).Contents (Elt F) → (⟨S8x510x510, .i1⟩ : BufTy).Contents (Elt F)),
    unary main_v21 main_v25 ((extractStridedSlice S8x510x510 ![0, 0, 2] · slices_S8x510x512_S8x510x510_0_0_2) : (⟨S8x510x512, .i1⟩ : BufTy).Contents (Elt F) → (⟨S8x510x510, .i1⟩ : BufTy).Contents (Elt F)),
    binary main_v24 main_v25 main_v26 (ori : (⟨S8x510x510, .i1⟩ : BufTy).Contents (Elt F) → (⟨S8x510x510, .i1⟩ : BufTy).Contents (Elt F) → (⟨S8x510x510, .i1⟩ : BufTy).Contents (Elt F)),
    nullary main_c_2 (constantI S_ 1 0#1),
    binary main_v26 main_c_2 main_v27 ((fun x v => Host.reduce IntOp.ori x v reducesTo_S8x510x510_S510x510_d0 h_S_) : (⟨S8x510x510, .i1⟩ : BufTy).Contents (Elt F) → (⟨S_, .i1⟩ : BufTy).Contents (Elt F) → (⟨S510x510, .i1⟩ : BufTy).Contents (Elt F)) ]

/-- Operations 73 to 88: the weights `1 + 2·β`, into `main_v38`. -/
abbrev st_ops6 : List (HloOp τ sig (Elt F)) :=
  [ nullary main_cst_3 (constant S_ .f32 0x00000000#32),
    unary main_cst_3 main_v28 (broadcastInDim S8x512x512 ![] bcast_S_S8x512x512 : (⟨S_, .f32⟩ : BufTy).Contents (Elt F) → (⟨S8x512x512, .f32⟩ : BufTy).Contents (Elt F)),
    unary main_v27 main_v29 (uitofp .f32 : (⟨S510x510, .i1⟩ : BufTy).Contents (Elt F) → (⟨S510x510, .f32⟩ : BufTy).Contents (Elt F)),
    unary main_v29 main_v30 (broadcastInDim S8x510x510 ![1, 2] bcast_S510x510_S8x510x510_1_2 : (⟨S510x510, .f32⟩ : BufTy).Contents (Elt F) → (⟨S8x510x510, .f32⟩ : BufTy).Contents (Elt F)),
    nullary main_c_4 (constantI S_ 32 1#32),
    unary main_c_4 main_v31 (broadcastInDim S1 ![] bcast_S_S1 : (⟨S_, .i32⟩ : BufTy).Contents (Elt F) → (⟨S1, .i32⟩ : BufTy).Contents (Elt F)),
    nullary main_c_5 (constantI S_ 32 1#32),
    unary main_c_5 main_v32 (broadcastInDim S1 ![] bcast_S_S1 : (⟨S_, .i32⟩ : BufTy).Contents (Elt F) → (⟨S1, .i32⟩ : BufTy).Contents (Elt F)),
    binary main_v31 main_v32 main_v33 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v28 main_v33 main_v30 main_v34 ((fun x i u => Host.scatter scatter_S8x512x512_S2_S8x510x510_012_n_12_0 (fun _ b => b) x i u) : (⟨S8x512x512, .f32⟩ : BufTy).Contents (Elt F) → (⟨S2, .i32⟩ : BufTy).Contents (Elt F) → (⟨S8x510x510, .f32⟩ : BufTy).Contents (Elt F) → (⟨S8x512x512, .f32⟩ : BufTy).Contents (Elt F)),
    nullary main_cst_6 (constant S_ .f32 0x40000000#32),
    unary main_cst_6 main_v35 (broadcastInDim S8x512x512 ![] bcast_S_S8x512x512 : (⟨S_, .f32⟩ : BufTy).Contents (Elt F) → (⟨S8x512x512, .f32⟩ : BufTy).Contents (Elt F)),
    binary main_v35 main_v34 main_v36 (mulf : (⟨S8x512x512, .f32⟩ : BufTy).Contents (Elt F) → (⟨S8x512x512, .f32⟩ : BufTy).Contents (Elt F) → (⟨S8x512x512, .f32⟩ : BufTy).Contents (Elt F)),
    nullary main_cst_7 (constant S_ .f32 0x3F800000#32),
    unary main_cst_7 main_v37 (broadcastInDim S8x512x512 ![] bcast_S_S8x512x512 : (⟨S_, .f32⟩ : BufTy).Contents (Elt F) → (⟨S8x512x512, .f32⟩ : BufTy).Contents (Elt F)),
    binary main_v37 main_v36 main_v38 (addf : (⟨S8x512x512, .f32⟩ : BufTy).Contents (Elt F) → (⟨S8x512x512, .f32⟩ : BufTy).Contents (Elt F) → (⟨S8x512x512, .f32⟩ : BufTy).Contents (Elt F)) ]

/-- Operations 89 to 93: the weighted sum over all pixels divided by their number, into `main_v41`. -/
abbrev st_ops7 : List (HloOp τ sig (Elt F)) :=
  [ binary main_v8 main_v38 main_v39 (mulf : (⟨S8x512x512, .f32⟩ : BufTy).Contents (Elt F) → (⟨S8x512x512, .f32⟩ : BufTy).Contents (Elt F) → (⟨S8x512x512, .f32⟩ : BufTy).Contents (Elt F)),
    nullary main_cst_8 (constant S_ .f32 0x00000000#32),
    binary main_v39 main_cst_8 main_v40 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    nullary main_cst_9 (constant S_ .f32 0x4A000000#32),
    binary main_v40 main_cst_9 main_v41 (Host.divf : (⟨S_, .f32⟩ : BufTy).Contents (Elt F) → (⟨S_, .f32⟩ : BufTy).Contents (Elt F) → (⟨S_, .f32⟩ : BufTy).Contents (Elt F)) ]

/-- The operation list is the seven stretches in a row. -/
theorem st_ops_eq : (Cert.ReferenceIdeal.ValueP.ops (F := F))
    = st_ops1 ++ (st_ops2 ++ (st_ops3 ++ (st_ops4 ++ (st_ops5 ++ (st_ops6 ++ st_ops7))))) := rfl

/-! ### Stretch 1: the log-softmax -/

/-- After stretch 1, `main_v0` holds the log-softmax stage of what `main_arg0` held. -/
theorem st_ops1_v0 (W : Valuation τ sig (Elt F)) (x0 : (⟨S8x21x512x512, .f32⟩ : BufTy).Contents (Elt F)) (h0 : W (Proc.devRef (τ := τ) .tc main_arg0) = x0) :
    after (st_ops1 (F := F)) W (Proc.devRef (τ := τ) .tc main_v0) = ReadP.val_main_v0 (F := F) x0 := by
  subst h0
  after_results_simp
  repeat rw [st_ofBuf_toBuf]
  delta TRef.ofBuf TRef.toBuf
  refine (st_cast_id _ _).trans ?_
  erw [st_cast_id _ (W (Proc.devRef (τ := τ) .tc main_arg0))]
  rfl

/-- Stretch 1 leaves the labels as they were. -/
theorem st_ops1_keep_arg1 (W : Valuation τ sig (Elt F)) :
    after (st_ops1 (F := F)) W (Proc.devRef (τ := τ) .tc main_arg1) = W (Proc.devRef (τ := τ) .tc main_arg1) := by
  after_results_simp <;> rfl

/-! ### Stretch 2: the mask and the masked labels -/

/-- After stretch 2, `main_v2` holds the mask stage of what `main_arg1` held. -/
theorem st_ops2_v2 (W : Valuation τ sig (Elt F)) (x1 : (⟨S8x512x512, .i32⟩ : BufTy).Contents (Elt F)) (h1 : W (Proc.devRef (τ := τ) .tc main_arg1) = x1) :
    after (st_ops2 (F := F)) W (Proc.devRef (τ := τ) .tc main_v2) = ReadP.val_main_v2 (F := F) x1 := by
  subst h1
  after_results_simp <;> rfl

/-- After stretch 2, `main_v4` holds the masked-label stage of what `main_arg1` held. -/
theorem st_ops2_v4 (W : Valuation τ sig (Elt F)) (x1 : (⟨S8x512x512, .i32⟩ : BufTy).Contents (Elt F)) (h1 : W (Proc.devRef (τ := τ) .tc main_arg1) = x1) :
    after (st_ops2 (F := F)) W (Proc.devRef (τ := τ) .tc main_v4) = ReadP.val_main_v4 (F := F) x1 := by
  subst h1
  after_results_simp
  repeat rw [st_ofBuf_toBuf]
  delta TRef.ofBuf TRef.toBuf
  erw [st_cast_id _ (W (Proc.devRef (τ := τ) .tc main_arg1))]
  repeat erw [st_cast_id]
  rfl

/-- Stretch 2 leaves the log-softmax as it was. -/
theorem st_ops2_keep_v0 (W : Valuation τ sig (Elt F)) :
    after (st_ops2 (F := F)) W (Proc.devRef (τ := τ) .tc main_v0) = W (Proc.devRef (τ := τ) .tc main_v0) := by
  after_results_simp <;> rfl

/-- Stretch 2 leaves the labels as they were. -/
theorem st_ops2_keep_arg1 (W : Valuation τ sig (Elt F)) :
    after (st_ops2 (F := F)) W (Proc.devRef (τ := τ) .tc main_arg1) = W (Proc.devRef (τ := τ) .tc main_arg1) := by
  after_results_simp <;> rfl

/-! ### Stretch 3: the labelled class's log-probability -/

/-- After stretch 3, `main_v5` holds the picked-logit stage, given the log-softmax in `main_v0` and the masked labels
    in `main_v4`. -/
theorem st_ops3_v5 (W : Valuation τ sig (Elt F)) (x0 : (⟨S8x21x512x512, .f32⟩ : BufTy).Contents (Elt F)) (x1 : (⟨S8x512x512, .i32⟩ : BufTy).Contents (Elt F))
    (h0 : W (Proc.devRef (τ := τ) .tc main_v0) = ReadP.val_main_v0 (F := F) x0)
    (h4 : W (Proc.devRef (τ := τ) .tc main_v4) = ReadP.val_main_v4 (F := F) x1) :
    after (st_ops3 (F := F)) W (Proc.devRef (τ := τ) .tc main_v5) = ReadP.val_main_v5 (F := F) x0 x1 := by
  after_results_simp
  repeat rw [st_ofBuf_toBuf]
  delta TRef.ofBuf TRef.toBuf
  refine (st_cast_id _ _).trans ?_
  erw [st_cast_id _ (W (Proc.devRef (τ := τ) .tc main_v0))]
  erw [st_cast_id _ (W (Proc.devRef (τ := τ) .tc main_v4))]
  rw [h0, h4]
  rfl

/-- Stretch 3 leaves the mask as it was. -/
theorem st_ops3_keep_v2 (W : Valuation τ sig (Elt F)) :
    after (st_ops3 (F := F)) W (Proc.devRef (τ := τ) .tc main_v2) = W (Proc.devRef (τ := τ) .tc main_v2) := by
  after_results_simp <;> rfl

/-- Stretch 3 leaves the labels as they were. -/
theorem st_ops3_keep_arg1 (W : Valuation τ sig (Elt F)) :
    after (st_ops3 (F := F)) W (Proc.devRef (τ := τ) .tc main_arg1) = W (Proc.devRef (τ := τ) .tc main_arg1) := by
  after_results_simp <;> rfl

/-! ### Stretch 4: the negated log-probability under the mask -/

/-- After stretch 4, `main_v8` holds the cross-entropy stage, given the picked logit in `main_v5` and the mask in
    `main_v2`. -/
theorem st_ops4_v8 (W : Valuation τ sig (Elt F)) (x0 : (⟨S8x21x512x512, .f32⟩ : BufTy).Contents (Elt F)) (x1 : (⟨S8x512x512, .i32⟩ : BufTy).Contents (Elt F))
    (h5 : W (Proc.devRef (τ := τ) .tc main_v5) = ReadP.val_main_v5 (F := F) x0 x1)
    (h2 : W (Proc.devRef (τ := τ) .tc main_v2) = ReadP.val_main_v2 (F := F) x1) :
    after (st_ops4 (F := F)) W (Proc.devRef (τ := τ) .tc main_v8) = ReadP.val_main_v8 (F := F) x0 x1 := by
  after_results_simp
  repeat rw [st_ofBuf_toBuf]
  delta TRef.ofBuf TRef.toBuf
  refine (st_cast_id _ _).trans ?_
  erw [st_cast_id _ (W (Proc.devRef (τ := τ) .tc main_v2))]
  repeat erw [st_cast_id]
  rw [h5, h2]
  rfl

/-- Stretch 4 leaves the labels as they were. -/
theorem st_ops4_keep_arg1 (W : Valuation τ sig (Elt F)) :
    after (st_ops4 (F := F)) W (Proc.devRef (τ := τ) .tc main_arg1) = W (Proc.devRef (τ := τ) .tc main_arg1) := by
  after_results_simp <;> rfl

/-! ### Stretch 5: the boundary bits -/

/-- After stretch 5, `main_v27` holds the boundary-bit stage of what `main_arg1` held. -/
theorem st_ops5_v27 (W : Valuation τ sig (Elt F)) (x1 : (⟨S8x512x512, .i32⟩ : BufTy).Contents (Elt F)) (h1 : W (Proc.devRef (τ := τ) .tc main_arg1) = x1) :
    after (st_ops5 (F := F)) W (Proc.devRef (τ := τ) .tc main_v27) = ReadP.val_main_v27 (F := F) x1 := by
  subst h1
  after_results_simp <;> rfl

/-- Stretch 5 leaves the cross entropy as it was. -/
theorem st_ops5_keep_v8 (W : Valuation τ sig (Elt F)) :
    after (st_ops5 (F := F)) W (Proc.devRef (τ := τ) .tc main_v8) = W (Proc.devRef (τ := τ) .tc main_v8) := by
  after_results_simp <;> rfl

/-! ### Stretch 6: the weights -/

/-- After stretch 6, `main_v38` holds the weight stage, given the boundary bits in `main_v27`. -/
theorem st_ops6_v38 (W : Valuation τ sig (Elt F)) (x1 : (⟨S8x512x512, .i32⟩ : BufTy).Contents (Elt F))
    (h27 : W (Proc.devRef (τ := τ) .tc main_v27) = ReadP.val_main_v27 (F := F) x1) :
    after (st_ops6 (F := F)) W (Proc.devRef (τ := τ) .tc main_v38) = ReadP.val_main_v38 (F := F) x1 := by
  after_results_simp
  rw [h27]
  rfl

/-- Stretch 6 leaves the cross entropy as it was. -/
theorem st_ops6_keep_v8 (W : Valuation τ sig (Elt F)) :
    after (st_ops6 (F := F)) W (Proc.devRef (τ := τ) .tc main_v8) = W (Proc.devRef (τ := τ) .tc main_v8) := by
  after_results_simp <;> rfl

/-! ### Stretch 7: the weighted mean -/

/-- After stretch 7, `main_v41` holds the last stage, given the cross entropy in `main_v8` and the weights in
    `main_v38`. -/
theorem st_ops7_v41 (W : Valuation τ sig (Elt F)) (x0 : (⟨S8x21x512x512, .f32⟩ : BufTy).Contents (Elt F)) (x1 : (⟨S8x512x512, .i32⟩ : BufTy).Contents (Elt F))
    (h8 : W (Proc.devRef (τ := τ) .tc main_v8) = ReadP.val_main_v8 (F := F) x0 x1)
    (h38 : W (Proc.devRef (τ := τ) .tc main_v38) = ReadP.val_main_v38 (F := F) x1) :
    after (st_ops7 (F := F)) W (Proc.devRef (τ := τ) .tc main_v41) = ReadP.val_main_v41 (F := F) x0 x1 := by
  after_results_simp
  rw [h8, h38]
  rfl

/-! ## The chain -/

/-- After the operations, the result buffer holds the last stage of the launch contents of the two arguments. -/
theorem after_ops_v41 (m : (ℓ : Loc nD τ sig) → Buf (Elt F) ℓ) (c : Dev nD) :
    after (Cert.ReferenceIdeal.ValueP.ops (F := F)) (launchContents m c) (Proc.devRef (τ := τ) .tc main_v41)
      = Cert.ReferenceIdeal.ReadP.val_main_v41 (F := F) (m ((c.tc : Thread nD τ).loc main_arg0)) (m ((c.tc : Thread nD τ).loc main_arg1)) := by
  rw [st_ops_eq, after_append, after_append, after_append, after_append, after_append, after_append]
  -- at the launch the two argument buffers hold the two arrays
  have a0 : launchContents m c (Proc.devRef (τ := τ) .tc main_arg0) = m ((c.tc : Thread nD τ).loc main_arg0) := rfl
  have a1 : launchContents m c (Proc.devRef (τ := τ) .tc main_arg1) = m ((c.tc : Thread nD τ).loc main_arg1) := rfl
  -- after stretch 1: the log-softmax, the labels untouched
  have b0 := st_ops1_v0 (launchContents m c) _ a0
  have b1 := (st_ops1_keep_arg1 (launchContents m c)).trans a1
  -- after stretch 2: the mask and the masked labels
  have c2 := st_ops2_v2 _ _ b1
  have c4 := st_ops2_v4 _ _ b1
  have c0 := (st_ops2_keep_v0 _).trans b0
  have c1 := (st_ops2_keep_arg1 _).trans b1
  -- after stretch 3: the picked logit
  have d5 := st_ops3_v5 _ _ _ c0 c4
  have d2 := (st_ops3_keep_v2 _).trans c2
  have d1 := (st_ops3_keep_arg1 _).trans c1
  -- after stretch 4: the cross entropy
  have e8 := st_ops4_v8 _ _ _ d5 d2
  have e1 := (st_ops4_keep_arg1 _).trans d1
  -- after stretch 5: the boundary bits
  have f27 := st_ops5_v27 _ _ e1
  have f8 := (st_ops5_keep_v8 _).trans e8
  -- after stretch 6: the weights
  have g38 := st_ops6_v38 _ _ f27
  have g8 := (st_ops6_keep_v8 _).trans f8
  -- stretch 7: the weighted mean
  exact st_ops7_v41 _ _ _ g8 g38

end Cert.BCE

end
-- ==== Proof.RefCE.lean ====
/-
  The reference's masked cross entropy at a pixel: `−(log_softmax x)[t]` taken at the label's class, `0` at the
  ignore label, is `(log S + M) − x t` — for real logits and labels that are classes or the ignore label.
-/
import proofs.«414120_j16509854286366_3_alg».proof.Proof.Spec
import proofs.«414120_j16509854286366_3_alg».proof.Proof.RefReadP
import Idealize.ShloMosaic.PureOps.Reduce
import Idealize.ShloMosaic.PureOps.Ideal.Laws

noncomputable section

open scoped BigOperators

namespace Cert.BCE

open Idealize.ShloMosaic Idealize.ShloMosaic.ValueIdx
open Cert.ReferenceIdeal Cert.ReferenceIdeal.ReadP

/-! ## The arithmetic over the reals -/

/-- A finite sum of real numbers, each read as an extended real, is their real sum read as an extended real. -/
theorem ce_coe_sum_real {ι : Type} [DecidableEq ι] (s : Finset ι) (f : ι → ℝ) :
    (∑ c ∈ s, ((f c : ℝ) : EReal)) = ((∑ c ∈ s, f c : ℝ) : EReal) := by
  refine Finset.induction_on s (by simp) ?_
  intro a s ha ih
  rw [Finset.sum_insert ha, Finset.sum_insert ha, ih, EReal.coe_add]

/-- The largest of 21 real logits is one of them, so it is real. -/
theorem ce_chanMax_real (x : Fin 21 → EReal) (hx : ∀ c, ∃ r : ℝ, x c = (r : EReal)) :
    ∃ M : ℝ, chanMax x = (M : EReal) := by
  obtain ⟨c₀, _, h⟩ := Finset.exists_mem_eq_sup (Finset.univ : Finset (Fin 21)) ⟨0, Finset.mem_univ _⟩ x
  obtain ⟨r, hr⟩ := hx c₀
  exact ⟨r, by unfold chanMax; rw [h, hr]⟩

/-- For real logits the sum of the shifted exponentials is a positive real. -/
theorem ce_expSum_real (x : Fin 21 → EReal) (hx : ∀ c, ∃ r : ℝ, x c = (r : EReal)) :
    ∃ S : ℝ, 0 < S ∧ expSum x = (S : EReal) := by
  obtain ⟨M, hM⟩ := ce_chanMax_real x hx
  choose r hr using hx
  refine ⟨∑ c : Fin 21, Real.exp (r c - M), Finset.sum_pos (fun c _ => Real.exp_pos _) ⟨0, Finset.mem_univ _⟩, ?_⟩
  unfold expSum
  rw [← ce_coe_sum_real]
  refine Finset.sum_congr rfl fun c _ => ?_
  rw [hM, hr c, ← EReal.coe_sub, Ideal.exp_coe]

/-- Minus the log-probability of a class, `−((a − M) − log (0 + S))`, is `(log S + M) − a` for reals `a`, `M` and
    a positive real `S`. -/
theorem ce_neg_logp_real (a M S : ℝ) (hS : 0 < S) :
    -((((a : ℝ) : EReal) - ((M : ℝ) : EReal)) - Ideal.log (0 + ((S : ℝ) : EReal)))
      = (Ideal.log ((S : ℝ) : EReal) + ((M : ℝ) : EReal)) - ((a : ℝ) : EReal) := by
  rw [zero_add, Ideal.log_coe, if_neg (not_le.mpr hS)]
  norm_cast
  ring

/-! ## The label words -/

/-- A label word below 21 is not the ignore label, is not negative read signed (so the wrap-around of a negative
    index leaves it alone), lies in `[0, 20]`, and reads signed as itself. -/
theorem ce_class_word (t : BitVec 32) (ht : t.toNat < 21) :
    IntOp.cmpi .ne t 255#32 = 1#1
      ∧ Scalar.select (IntOp.cmpi .slt t 0#32) (IntOp.addi t 21#32) t = t
      ∧ IntOp.andi (IntOp.cmpi .sge t 0#32) (IntOp.cmpi .sle t 20#32) = 1#1
      ∧ t.toInt.toNat = t.toNat := by
  obtain ⟨n, hn, rfl⟩ : ∃ n, n < 21 ∧ t = BitVec.ofNat 32 n := ⟨t.toNat, ht, by simp⟩
  clear ht
  interval_cases n <;> decide

/-! ## The two constant words -/

/-- The word `0xFF800000` is `−∞`. -/
theorem ce_negInf_word : Ideal.ofBits .f32 0xFF800000#32 = (⊥ : EReal) := by simp [Ideal.ofBits, Ideal.ieee]

/-- The word `0x00000000` is `0`. -/
theorem ce_zero_word : Ideal.ofBits .f32 0x00000000#32 = (0 : EReal) := by simp [Ideal.ofBits, Ideal.ieee]

/-! ## The largest logit: the reduction over the class axis -/

/-- Pixel (b, h, w) with class `k` put back on the class axis is (b, k, h, w). -/
theorem ce_lift_class (hr : S8x21x512x512.Reduces [1] S8x512x512) (b : Fin 8) (h w : Fin 512)
    (k : Fin (S8x21x512x512.size 1)) : hr.lift (ix3 b h w) k = ix4 b (⟨k.val, k.isLt⟩ : Fin 21) h w := by
  funext c; apply Fin.ext
  fin_cases c <;> rfl

/-- From `−∞` the reduction with a maximum body over the class axis is, at a pixel, the largest of its logits. -/
theorem ce_classMax_apply (x : S8x21x512x512.Idx → EReal) (b : Fin 8) (h w : Fin 512) :
    val_main_call0_v0 (F := Ideal) x (ix3 b h w) = chanMax fun c => x (ix4 b c h w) := by
  unfold val_main_call0_v0
  have hr : S8x21x512x512.Reduces [1] S8x512x512 := by decide
  rw [Host.reduce_eq_fold_single (FloatOps.maximumf (F := Ideal) (φ := .f32)) x _ _ hr _]
  have hf : (x ∘ hr.lift (ix3 b h w)) = fun k : Fin 21 => x (ix4 b k h w) :=
    funext fun k => congrArg x (ce_lift_class hr b h w k)
  refine (congrArg (fun f => Finset.fold max (Ideal.ofBits .f32 0xFF800000#32) f (Finset.univ : Finset (Fin 21))) hf).trans ?_
  rw [ce_negInf_word]
  rfl

/-! ## The in-range flag: the conjunction over the index vector's one component -/

/-- Pixel (b, 0, h, w) with the one component put back on the last axis is (b, 0, h, w, 0). -/
theorem ce_lift_unit (hr : S8x1x512x512x1.Reduces [4] S8x1x512x512) (b : Fin 8) (h w : Fin 512)
    (k : Fin (S8x1x512x512x1.size 4)) :
    hr.lift (ix4 b (0 : Fin 1) h w) k = ix5 b (0 : Fin 1) h w (0 : Fin 1) := by
  funext c; apply Fin.ext
  have hk : k.val = 0 := by have : k.val < 1 := k.isLt; omega
  fin_cases c
  · rfl
  · rfl
  · rfl
  · rfl
  · exact hk

/-- The reduction with a conjunction body over the last axis, of size one, is at a pixel the conjunction of its one
    element there with the initial value. -/
theorem ce_andReduce_unitAxis (y : IVec S8x1x512x512x1 1) (init : IVec S_ 1)
    (h' : S8x1x512x512x1.ReducesTo [4] S8x1x512x512) (hu : 0 < S_.numel) (b : Fin 8) (h w : Fin 512) :
    Host.reduce IntOp.andi y init h' hu (ix4 b (0 : Fin 1) h w)
      = IntOp.andi (y (ix5 b (0 : Fin 1) h w (0 : Fin 1))) (init (Shape.Idx.first hu)) := by
  have hr : S8x1x512x512x1.Reduces [4] S8x1x512x512 := by decide
  rw [Host.reduce_eq_fold_single IntOp.andi y init h' hr hu]
  have hf : (y ∘ hr.lift (ix4 b (0 : Fin 1) h w)) = fun _ : Fin 1 => y (ix5 b (0 : Fin 1) h w (0 : Fin 1)) :=
    funext fun k => congrArg y (ce_lift_unit hr b h w k)
  refine (congrArg (fun f => Finset.fold IntOp.andi (init (Shape.Idx.first hu)) f (Finset.univ : Finset (Fin 1))) hf).trans ?_
  rw [Finset.univ_unique, Finset.fold_singleton]

/-! ## The gather along the class axis -/

/-- The gather of one class per pixel: with the class axis collapsed and start-indexed and the batch, row and column
    axes batching, result element (b, 0, h, w) is the operand at (b, k, h, w), `k` the start index at (b, 0, h, w, 0)
    — when that word is a class, so that its signed reading is itself and the clamp into `[0, 20]` leaves it. -/
theorem ce_gather_class (lp : S8x21x512x512.Idx → EReal) (idx : IVec S8x1x512x512x1 32) (b : Fin 8) (h w : Fin 512)
    (hk : (idx (ix5 b (0 : Fin 1) h w (0 : Fin 1))).toNat < 21) :
    Host.gather gather_S8x21x512x512_S8x1x512x512x1_S8x1x512x512_n_1_023_023_1_4_1111 lp idx (ix4 b (0 : Fin 1) h w)
      = lp (ix4 b (⟨(idx (ix5 b (0 : Fin 1) h w (0 : Fin 1))).toNat, hk⟩ : Fin 21) h w) := by
  unfold Host.gather
  refine congrArg lp ?_
  generalize hd : gather_S8x21x512x512_S8x1x512x512x1_S8x1x512x512_n_1_023_023_1_4_1111 = d
  have hob : d.operandBatchingDims = [0, 2, 3] := by rw [← hd]; rfl
  have hcs : d.collapsedSliceDims = [1] := by rw [← hd]; rfl
  have hsm : d.startIndexMap = [1] := by rw [← hd]; rfl
  -- on a batching axis the operand's coordinate is the result's batch coordinate
  have key : ∀ a : Fin S8x21x512x512.rank, a ∈ d.operandBatchingDims →
      (d.operandIdx (ix4 b (0 : Fin 1) h w) idx a).val = d.batchCoord (ix4 b (0 : Fin 1) h w) a := by
    intro a ha
    show d.start _ idx a + d.batchCoord _ a + d.offCoord _ a = _
    rw [d.start_batching _ idx a ha, d.offCoord_eq_zero _ a (fun hm => ((d.mem_sKept a).1 hm).2 ha), Nat.zero_add,
      Nat.add_zero]
  funext a
  refine Fin.ext ?_
  match a with
  | ⟨0, _⟩ =>
    refine (key _ (by rw [hob]; exact List.Mem.head _)).trans ?_
    subst hd; rfl
  | ⟨1, _⟩ =>
    have hb : (⟨1, by decide⟩ : Fin S8x21x512x512.rank) ∉ d.operandBatchingDims := by rw [hob]; decide
    have hc : (⟨1, by decide⟩ : Fin S8x21x512x512.rank) ∈ d.collapsedSliceDims := by rw [hcs]; decide
    have hm : (⟨1, by decide⟩ : Fin S8x21x512x512.rank) ∈ d.startIndexMap := by rw [hsm]; decide
    show d.start _ idx _ + d.batchCoord _ _ + d.offCoord _ _ = _
    rw [d.batchCoord_eq_zero _ _ hb, d.offCoord_eq_zero _ _ (fun hmk => ((d.mem_sKept _).1 hmk).1 hc), Nat.add_zero]
    simp only [Nat.add_zero]
    unfold GatherDims.start
    rw [dif_pos hm]
    have hsi : d.siIdx (ix4 b (0 : Fin 1) h w) ⟨List.idxOf (⟨1, by decide⟩ : Fin S8x21x512x512.rank) d.startIndexMap,
        List.idxOf_lt_length_iff.2 hm⟩ = ix5 b (0 : Fin 1) h w (0 : Fin 1) := by
      subst hd
      funext c; refine Fin.ext ?_
      match c with
      | ⟨0, _⟩ => rfl
      | ⟨1, _⟩ => rfl
      | ⟨2, _⟩ => rfl
      | ⟨3, _⟩ => rfl
      | ⟨4, _⟩ => rfl
    rw [hsi]
    have hsl : d.sliceSizes ⟨1, by decide⟩ = 1 := d.slice_collapsed _ hc
    show min (idx (ix5 b (0 : Fin 1) h w (0 : Fin 1))).toInt.toNat (21 - d.sliceSizes ⟨1, by decide⟩) = _
    rw [hsl, BitVec.toInt_eq_toNat_of_lt (by omega), Int.toNat_natCast]
    exact min_eq_left (by omega)
  | ⟨2, _⟩ =>
    refine (key _ (by rw [hob]; exact List.Mem.tail _ (List.Mem.head _))).trans ?_
    subst hd; rfl
  | ⟨3, _⟩ =>
    refine (key _ (by rw [hob]; exact List.Mem.tail _ (List.Mem.tail _ (List.Mem.head _)))).trans ?_
    subst hd; rfl

/-! ## The index maps of the layout operations, at a pixel -/

theorem ce_idx_call0_v3_pixel (b : Fin 8) (h w : Fin 512) : idx_main_call0_v3 (ix4 b (0 : Fin 1) h w) = ix3 b h w := by
  funext a; match a with | ⟨0, _⟩ => rfl | ⟨1, _⟩ => rfl | ⟨2, _⟩ => rfl

theorem ce_idx_call0_v4_pixel (b : Fin 8) (c : Fin 21) (h w : Fin 512) :
    idx_main_call0_v4 (ix4 b c h w) = ix4 b (0 : Fin 1) h w := by
  funext a; match a with | ⟨0, _⟩ => rfl | ⟨1, _⟩ => rfl | ⟨2, _⟩ => rfl | ⟨3, _⟩ => rfl

theorem ce_idx_call0_v7_pixel (b : Fin 8) (h w : Fin 512) (k : Fin 21) :
    idx_main_call0_v7 (ix3 b h w) k = ix4 b k h w := by
  funext a; match a with | ⟨0, _⟩ => rfl | ⟨1, _⟩ => rfl | ⟨2, _⟩ => rfl | ⟨3, _⟩ => rfl

theorem ce_idx_call0_v8_pixel (b : Fin 8) (h w : Fin 512) : idx_main_call0_v8 (ix4 b (0 : Fin 1) h w) = ix3 b h w := by
  funext a; match a with | ⟨0, _⟩ => rfl | ⟨1, _⟩ => rfl | ⟨2, _⟩ => rfl

theorem ce_idx_call0_v10_pixel (b : Fin 8) (c : Fin 21) (h w : Fin 512) :
    idx_main_call0_v10 (ix4 b c h w) = ix4 b (0 : Fin 1) h w := by
  funext a; match a with | ⟨0, _⟩ => rfl | ⟨1, _⟩ => rfl | ⟨2, _⟩ => rfl | ⟨3, _⟩ => rfl

theorem ce_idx_v4_pixel (b : Fin 8) (h w : Fin 512) : idx_main_v4 (ix4 b (0 : Fin 1) h w) = ix3 b h w := by
  funext a; match a with | ⟨0, _⟩ => rfl | ⟨1, _⟩ => rfl | ⟨2, _⟩ => rfl

/-- Dropping the unit class axis keeps the pixel: position `(b·512 + h)·512 + w` of [8, 512, 512] is position
    (b, 0, h, w) of [8, 1, 512, 512]. -/
theorem ce_idx_v6_pixel (b : Fin 8) (h w : Fin 512) : idx_main_v6 (ix3 b h w) = ix4 b (0 : Fin 1) h w := by
  funext a; refine Fin.ext ?_
  have hb := b.isLt; have hh := h.isLt; have hw := w.isLt
  match a with
  | ⟨0, _⟩ => show ((b.val * 512 + h.val) * 512 + w.val) / 262144 = b.val; omega
  | ⟨1, _⟩ => rfl
  | ⟨2, _⟩ => show ((b.val * 512 + h.val) * 512 + w.val) / 512 % 512 = h.val; omega
  | ⟨3, _⟩ => show ((b.val * 512 + h.val) * 512 + w.val) % 512 = w.val; omega

/-- Appending a unit axis keeps the pixel. -/
theorem ce_idx_call2_v5_pixel (b : Fin 8) (h w : Fin 512) :
    idx_main_call2_v5 (ix5 b (0 : Fin 1) h w (0 : Fin 1)) = ix4 b (0 : Fin 1) h w := by
  funext a; refine Fin.ext ?_
  have hb := b.isLt; have hh := h.isLt; have hw := w.isLt
  match a with
  | ⟨0, _⟩ => show ((((b.val * 1 + 0) * 512 + h.val) * 512 + w.val) * 1 + 0) / 262144 = b.val; omega
  | ⟨1, _⟩ => rfl
  | ⟨2, _⟩ => show ((((b.val * 1 + 0) * 512 + h.val) * 512 + w.val) * 1 + 0) / 512 % 512 = h.val; omega
  | ⟨3, _⟩ => show ((((b.val * 1 + 0) * 512 + h.val) * 512 + w.val) * 1 + 0) % 512 = w.val; omega

/-! ## The log-softmax at a pixel -/

/-- A pixel's logit minus the pixel's largest logit. -/
theorem ce_shifted_apply (x : S8x21x512x512.Idx → EReal) (b : Fin 8) (k : Fin 21) (h w : Fin 512) :
    val_main_call0_v5 (F := Ideal) x (ix4 b k h w) = x (ix4 b k h w) - chanMax fun c => x (ix4 b c h w) := by
  rw [val_main_call0_v5_apply, val_main_call0_v4_apply, ce_idx_call0_v4_pixel, val_main_call0_v3_apply, ce_idx_call0_v3_pixel,
    val_main_call0_v2_apply, val_main_call0_v1_apply, val_main_call0_cst_0_apply, ce_classMax_apply]
  show x _ - max (Ideal.ofBits .f32 0xFF800000#32) _ = _
  rw [ce_negInf_word, max_eq_right bot_le]

/-- The sum over the classes of the exponentials of the shifted logits, from the initial value `0`. -/
theorem ce_sumExp_apply (x : S8x21x512x512.Idx → EReal) (b : Fin 8) (h w : Fin 512) :
    val_main_call0_v7 (F := Ideal) x (ix3 b h w) = 0 + expSum fun c => x (ix4 b c h w) := by
  rw [val_main_call0_v7_apply, val_main_call0_cst_1_apply, Ideal.ofBits_def, ce_zero_word]
  refine congrArg (0 + ·) ?_
  unfold expSum
  refine Finset.sum_congr rfl fun k _ => ?_
  rw [ce_idx_call0_v7_pixel, val_main_call0_v6_apply, ce_shifted_apply]
  rfl

/-- The log-probability of class `c` at a pixel: `(x c − M) − log (0 + S)`. -/
theorem ce_logSoftmax_apply (x : S8x21x512x512.Idx → EReal) (b : Fin 8) (c : Fin 21) (h w : Fin 512) :
    val_main_v0 (F := Ideal) x (ix4 b c h w)
      = (x (ix4 b c h w) - chanMax fun k => x (ix4 b k h w)) - Ideal.log (0 + expSum fun k => x (ix4 b k h w)) := by
  rw [val_main_v0_apply, ce_shifted_apply, val_main_call0_v10_apply, ce_idx_call0_v10_pixel, val_main_call0_v9_apply,
    val_main_call0_v8_apply, ce_idx_call0_v8_pixel, ce_sumExp_apply]
  rfl

/-! ## The label's class at a pixel -/

/-- The mask: the label is not the ignore label. -/
theorem ce_mask_apply (t : IVec S8x512x512 32) (i : S8x512x512.Idx) :
    val_main_v2 (F := Ideal) t i = IntOp.cmpi .ne (t i) 255#32 := by
  rw [val_main_v2_apply, val_main_v1_apply, val_main_c_apply]

/-- The label with the ignore label replaced by class 0. -/
theorem ce_safeLabel_apply (t : IVec S8x512x512 32) (i : S8x512x512.Idx) :
    val_main_v3 (F := Ideal) t i = Scalar.select (IntOp.cmpi .ne (t i) 255#32) (t i) 0#32 := by
  rw [val_main_v3_apply, ce_mask_apply, val_main_call1_v1_apply, val_main_call1_v0_apply, val_main_c_0_apply]

/-- At a pixel whose label is a class the gather's start index is the label. -/
theorem ce_indexWord_apply (t : IVec S8x512x512 32) (b : Fin 8) (h w : Fin 512) (ht : (t (ix3 b h w)).toNat < 21) :
    val_main_call2_v5 (F := Ideal) t (ix5 b (0 : Fin 1) h w (0 : Fin 1)) = t (ix3 b h w) := by
  rw [val_main_call2_v5_apply, ce_idx_call2_v5_pixel, val_main_call2_v4_apply, val_main_call2_v1_apply,
    val_main_call2_v3_apply, val_main_call2_v0_apply, val_main_call2_c_apply, val_main_call2_v2_apply,
    val_main_call2_c_0_apply, val_main_v4_apply, ce_idx_v4_pixel, ce_safeLabel_apply, (ce_class_word _ ht).1, select_one]
  exact (ce_class_word _ ht).2.1

/-- At a pixel whose label is a class the start index is in range. -/
theorem ce_inRange_apply (t : IVec S8x512x512 32) (b : Fin 8) (h w : Fin 512) (ht : (t (ix3 b h w)).toNat < 21) :
    val_main_call2_v12 (F := Ideal) t (ix4 b (0 : Fin 1) h w) = 1#1 := by
  unfold val_main_call2_v12
  rw [ce_andReduce_unitAxis, val_main_call2_v11_apply, val_main_call2_v7_apply, val_main_call2_v10_apply,
    ce_indexWord_apply t b h w ht, val_main_call2_v6_apply, val_main_call2_c_2_apply, val_main_call2_v9_apply,
    val_main_call2_v8_apply, val_main_call2_c_1_apply, val_main_call2_c_3_apply, (ce_class_word _ ht).2.2.1]
  rfl

/-- At a pixel whose label is a class the gathered value is the log-probability of that class. -/
theorem ce_picked_apply (x : S8x21x512x512.Idx → EReal) (t : IVec S8x512x512 32) (b : Fin 8) (h w : Fin 512)
    (ht : (t (ix3 b h w)).toNat < 21) :
    val_main_v5 (F := Ideal) x t (ix4 b (0 : Fin 1) h w)
      = val_main_v0 (F := Ideal) x (ix4 b (cls (t (ix3 b h w))) h w) := by
  rw [val_main_v5_apply, ce_inRange_apply t b h w ht, select_one]
  unfold val_main_call2_v13
  have hk : (val_main_call2_v5 (F := Ideal) t (ix5 b (0 : Fin 1) h w (0 : Fin 1))).toNat < 21 := by
    rw [ce_indexWord_apply t b h w ht]; exact ht
  rw [ce_gather_class _ _ b h w hk]
  have hc : (⟨_, hk⟩ : Fin 21) = cls (t (ix3 b h w)) := by
    unfold cls
    rw [dif_pos ht]
    exact Fin.ext (congrArg BitVec.toNat (ce_indexWord_apply t b h w ht))
  rw [hc]

/-- The reference's per-pixel cross entropy, before the weight. -/
theorem ce_apply (x : SX.Idx → EReal) (t : IVec ST 32) (hf : Finite x) (hl : Labels t) (b : Fin 8) (h w : Fin 512) :
    Cert.ReferenceIdeal.ReadP.val_main_v8 (F := Ideal) x t (ix3 b h w)
      = (if t (ix3 b h w) = 255#32 then 0
         else (Ideal.log (expSum fun c => x (ix4 b c h w)) + chanMax fun c => x (ix4 b c h w))
                - x (ix4 b (cls (t (ix3 b h w))) h w)) := by
  by_cases h255 : t (ix3 b h w) = 255#32
  · have hne : IntOp.cmpi .ne (255#32 : BitVec 32) 255#32 = 0#1 := by decide
    rw [if_pos h255, val_main_v8_apply, ce_mask_apply, h255, hne, select_zero, val_main_call3_v1_apply,
      val_main_call3_v0_apply, val_main_cst_apply, Ideal.ofBits_def, ce_zero_word]
  · have ht : (t (ix3 b h w)).toNat < 21 := (hl _).resolve_right h255
    rw [if_neg h255, val_main_v8_apply, ce_mask_apply, (ce_class_word _ ht).1, select_one, val_main_v7_apply,
      val_main_v6_apply, ce_idx_v6_pixel, ce_picked_apply x t b h w ht, ce_logSoftmax_apply]
    obtain ⟨M, hM⟩ := ce_chanMax_real (fun c => x (ix4 b c h w)) (fun c => hf _)
    obtain ⟨S, hS, hSe⟩ := ce_expSum_real (fun c => x (ix4 b c h w)) (fun c => hf _)
    obtain ⟨a, ha⟩ := hf (ix4 b (cls (t (ix3 b h w))) h w)
    rw [hM, hSe, ha]
    exact ce_neg_logp_real a M S hS

end Cert.BCE

end
-- ==== Proof.RefTotal.lean ====
/-
  The reference's last stage is `total`: its per-pixel products — the masked cross entropy times the weight — summed
  over all pixels from `0`, divided by 2²¹.
-/
import proofs.«414120_j16509854286366_3_alg».proof.Proof.Spec
import proofs.«414120_j16509854286366_3_alg».proof.Proof.RefReadP
import proofs.«414120_j16509854286366_3_alg».proof.Proof.RefCE
import proofs.«414120_j16509854286366_3_alg».proof.Proof.Weights

noncomputable section

open scoped BigOperators

namespace Cert.BCE

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The word `0x4A000000` is the float 2²¹ = 2097152. -/
theorem ofBits_two_pow_21 : Ideal.ofBits .f32 0x4A000000#32 = ((2097152 : ℝ) : EReal) := by
  simp [Ideal.ofBits, Ideal.ieee, -EReal.coe_mul]; norm_num

/-- The zero word is `0`. -/
theorem ofBits_zero_word : Ideal.ofBits .f32 0x00000000#32 = 0 := by
  simp [Ideal.ofBits, Ideal.ieee]

/-- The reference's mean is `total`, for real logits and labels that are classes or the ignore label. -/
theorem ref_total (x : SX.Idx → EReal) (t : IVec ST 32) (hf : Finite x) (hl : Labels t) (i : (⟨0, ![]⟩ : Shape).Idx) :
    Cert.ReferenceIdeal.ReadP.val_main_v41 (F := Ideal) x t i = total x t := by
  rw [Cert.ReferenceIdeal.ReadP.val_main_v41_apply, Cert.ReferenceIdeal.ReadP.val_main_v40_apply,
    Cert.ReferenceIdeal.ReadP.val_main_cst_9_apply, Cert.ReferenceIdeal.ReadP.val_main_cst_8_apply]
  simp only [Ideal.hostDivf_def, Ideal.ofBits_def, ofBits_two_pow_21, ofBits_zero_word, zero_add]
  unfold total
  congr 1
  rw [sum_idx3]
  refine Finset.sum_congr rfl fun b _ => ?_
  unfold imageSum
  refine Finset.sum_congr rfl fun h _ => Finset.sum_congr rfl fun w _ => ?_
  rw [Cert.ReferenceIdeal.ReadP.val_main_v39_apply, Ideal.mulf_def, ce_apply x t hf hl b h w, wmapR_apply t b h w]
  rfl

end Cert.BCE

end
-- ==== Proof.lean ====
/-
  The certificate of the boundary-weighted cross-entropy kernel against its jnp reference, over the extended reals.

  Both idealized programs end with their scalar result at `Cert.BCE.total` of the two argument arrays — the sum over
  the 8·512·512 pixels of `((log Σ_c exp (x_c − M) + M) − x_t) · (1 + 2·β)`, `0` at the ignore label, divided by 2²¹ —
  under the precondition (real logits; every label a class 0..20 or the ignore label 255): the kernel by its grid of
  eight per-image sums and the host's mean of them (`Cert.BCE.kernel_run`), the reference by log-softmax, a gather at
  the label and a mean over all pixels (`Cert.BCE.after_ops_v41`, `Cert.BCE.ref_total`). The three frames are the
  generated ones (the reference's its run with the result dropped); the ideal pass rewrote nothing.
-/
import proofs.«414120_j16509854286366_3_alg».proof.Defs
import proofs.«414120_j16509854286366_3_alg».proof.Proof.Gen.Kernel
import proofs.«414120_j16509854286366_3_alg».proof.Proof.Gen.Kernel.Skeleton
import proofs.«414120_j16509854286366_3_alg».proof.Proof.Gen.Kernel.Launch
import proofs.«414120_j16509854286366_3_alg».proof.Proof.Gen.Kernel.Points
import proofs.«414120_j16509854286366_3_alg».proof.Proof.Gen.Kernel.Frame
import proofs.«414120_j16509854286366_3_alg».proof.Proof.Gen.KernelIdeal
import proofs.«414120_j16509854286366_3_alg».proof.Proof.Gen.KernelIdeal.Skeleton
import proofs.«414120_j16509854286366_3_alg».proof.Proof.Gen.KernelIdeal.Launch
import proofs.«414120_j16509854286366_3_alg».proof.Proof.Gen.KernelIdeal.Points
import proofs.«414120_j16509854286366_3_alg».proof.Proof.Gen.KernelIdeal.Frame
import proofs.«414120_j16509854286366_3_alg».proof.Proof.Gen.ReferenceIdeal
import proofs.«414120_j16509854286366_3_alg».proof.Proof.Gen.Pre_finite_inputs
import proofs.«414120_j16509854286366_3_alg».proof.Proof.RefRunP
import proofs.«414120_j16509854286366_3_alg».proof.Proof.RefReadP
import proofs.«414120_j16509854286366_3_alg».proof.Proof.Spec
import proofs.«414120_j16509854286366_3_alg».proof.Proof.PreDecode
import proofs.«414120_j16509854286366_3_alg».proof.Proof.KernelRun
import proofs.«414120_j16509854286366_3_alg».proof.Proof.RefStages
import proofs.«414120_j16509854286366_3_alg».proof.Proof.RefTotal
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end at `total` of the arguments. -/
theorem algebraic : Cert.algebraic_KernelIdeal_ReferenceIdeal := by
  intro m ρ m' ρ' hpre hagree
  have hdec : ∀ c : Dev Cert.KernelIdeal.nD,
      Cert.BCE.Finite (m ((c.tc : Thread Cert.KernelIdeal.nD Cert.KernelIdeal.τ).loc Cert.KernelIdeal.main_arg0))
      ∧ Cert.BCE.Labels (m ((c.tc : Thread Cert.KernelIdeal.nD Cert.KernelIdeal.τ).loc Cert.KernelIdeal.main_arg1)) :=
    fun c => Cert.BCE.pre_decode _ _ (hpre c)
  refine ⟨fun c => fun _ => Cert.BCE.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.BCE.kernel_run m ρ (fun c => (hdec c).2), ?_⟩
  refine (θ_run Cert.ReferenceIdeal.defs _ _).mono (fun _ h c => ⟨(h c).1.trans ?_, (h c).2⟩)
    (Cert.ReferenceIdeal.ValueP.run (F := Ideal) m' ρ')
  refine (Cert.BCE.after_ops_v41 m' c).trans ?_
  funext i
  rw [(hagree c).1, (hagree c).2]
  exact Cert.BCE.ref_total _ _ (hdec c).1 (hdec c).2 i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
